-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4x1024 : Shape := ⟨3, ![4096, 4, 1024]⟩
abbrev S_ : Shape := ⟨0, ![]⟩

class Facts : Prop where
  bcast_S_S4096x4x1024 : S_.BroadcastsInDim S4096x4x1024 (![] : Fin 0 → Fin S4096x4x1024.rank)
  reducesTo_S4096x4x1024_S_d0_1_2 : S4096x4x1024.ReducesTo [0, 1, 2] S_
  h_S_ : 0 < S_.numel

variable [Facts]

def fn {F : FTy → Type} [FloatOps F] (main_arg0 : FVec F S4096x4x1024 .f32) : IVec S_ 1 :=
  let main_v0 : FVec F S4096x4x1024 .f32 := Host.absf main_arg0
  let main_cst : FVec F S_ .f32 := constant S_ .f32 0x7F800000#32
  let main_v1 : FVec F S4096x4x1024 .f32 := broadcastInDim S4096x4x1024 ![] bcast_S_S4096x4x1024 main_cst
  let main_v2 : IVec S4096x4x1024 1 := cmpf .olt main_v0 main_v1
  let main_c : IVec S_ 1 := constantI S_ 1 1#1
  let main_v3 : IVec S_ 1 := (fun x v => Host.reduce IntOp.andi x v reducesTo_S4096x4x1024_S_d0_1_2 h_S_) main_v2 main_c
  main_v3
-- ==== Kernel.lean ====
abbrev S4096x4x1024 : Shape := ⟨3, ![4096, 4, 1024]⟩
abbrev S4x4096x1024 : Shape := ⟨3, ![4, 4096, 1024]⟩
abbrev S4x256x1024 : Shape := ⟨3, ![4, 256, 1024]⟩
abbrev S4x1024x1024 : Shape := ⟨3, ![4, 1024, 1024]⟩
abbrev S256x4x1024 : Shape := ⟨3, ![256, 4, 1024]⟩
abbrev S4x256x1 : Shape := ⟨3, ![4, 256, 1]⟩
abbrev S4x256 : Shape := ⟨2, ![4, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x4x1024, .f32⟩
  | .hbm, ⟨1, _⟩ => ⟨S4x4096x1024, .f32⟩
  | .hbm, ⟨2, _⟩ => ⟨S4x4096x1024, .bf16⟩
  | .hbm, ⟨3, _⟩ => ⟨S4096x4x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S256x4x1024, .f32⟩
  | .local _ .vmem, ⟨5, _⟩ => ⟨S256x4x1024, .f32⟩
  | .local _ .vmem, ⟨6, _⟩ => ⟨S4x256x1, .f32⟩
  | .local _ .vmem, ⟨7, _⟩ => ⟨S4x256x1, .f32⟩
  | .local _ .vmem, ⟨8, _⟩ => ⟨S4x256x1024, .f32⟩
  | _, _ => ⟨S4096x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_31 : BitVec 32 := 0#32
  let v42 : BitVec 1 := Scalar.cmpi .ne v41 c0_i32_31
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4096x4x1024_S4x4096x1024_1_0_2 : S4096x4x1024.Transposes [1, 0, 2] S4x4096x1024
  bitsLt_bf16_f32 : FTy.bits .bf16 < FTy.bits .f32
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  inb_S4x1024x1024_S4x1024x1024_0_0_0 : ∀ a, (![0, 0, 0] : Fin 3 → Nat) a + S4x1024x1024.size a ≤ S4x1024x1024.size a
  h_S4x1024x1024 : 0 < S4x1024x1024.numel
  shapeCasts_S4x1024x1024_S4x1024x1024 : S4x1024x1024.ShapeCasts S4x1024x1024
  reduces_S4x256x1024_S4x256 : S4x256x1024.Reduces [2] S4x256
  shapeCasts_S4x256_S4x256x1 : S4x256.ShapeCasts S4x256x1
  broadcasts_S4x256x1_S4x256x1024 : S4x256x1.Broadcasts S4x256x1024
  transposes_S4x256x1024_p1_0_2_S256x4x1024 : S4x256x1024.Transposes [1, 0, 2] S256x4x1024
  inb_S256x4x1024_S256x4x1024_0_0_0 : ∀ a, (![0, 0, 0] : Fin 3 → Nat) a + S256x4x1024.size a ≤ S256x4x1024.size a
  h_S256x4x1024 : 0 < S256x4x1024.numel
  dot_S4x256x1024_S4x1024x1024_S4x256x1024_2_2_1_1_0_0_wf : DotDims.WF S4x256x1024 S4x1024x1024 S4x256x1024 [2] [2] [1] [1] [0] [0]
  dot_S4x256x1024_S4x1024x1024_S4x256x1024_2_1_1_2_0_0_wf : DotDims.WF S4x256x1024 S4x1024x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x4096x1024.size a
  hwx0_0 : ∀ i : grid0.Coords, EltTy.bits .bf16 = 32 ∨ (Rect.block (s := S4x4096x1024) S4x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S4x4096x1024.size a
  hwx0_1 : ∀ i : grid0.Coords, EltTy.bits .bf16 = 32 ∨ (Rect.block (s := S4x4096x1024) S4x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4x1024.size a ≤ S4096x4x1024.size a
  hwx0_2 : ∀ i : grid0.Coords, EltTy.bits .f32 = 32 ∨ (Rect.block (s := S4096x4x1024) S256x4x1024.size (cc0_transform_2 i) (hinb0_2 i)).WholeWords (EltTy.packing .f32)

variable [Facts₀]

def dot_S4x256x1024_S4x1024x1024_S4x256x1024_2_2_1_1_0_0 : DotDims S4x256x1024 S4x1024x1024 S4x256x1024 where
  lhsContracting := [2]
  rhsContracting := [2]
  lhsNonContracting := [1]
  rhsNonContracting := [1]
  lhsBatch := [0]
  rhsBatch := [0]
  wf := dot_S4x256x1024_S4x1024x1024_S4x256x1024_2_2_1_1_0_0_wf
def dot_S4x256x1024_S4x1024x1024_S4x256x1024_2_1_1_2_0_0 : DotDims S4x256x1024 S4x1024x1024 S4x256x1024 where
  lhsContracting := [2]
  rhsContracting := [1]
  lhsNonContracting := [1]
  rhsNonContracting := [2]
  lhsBatch := [0]
  rhsBatch := [0]
  wf := dot_S4x256x1024_S4x1024x1024_S4x256x1024_2_1_1_2_0_0_wf

abbrev win0_0 : Pipeline.Window sig grid0 :=
  Pipeline.Window.ofSpec (Memref.whole main_v1) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4x1024 : Shape := ⟨3, ![4096, 4, 1024]⟩
abbrev S4x4096x1024 : Shape := ⟨3, ![4, 4096, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x4x1024, .f32⟩
  | .hbm, ⟨1, _⟩ => ⟨S4x4096x1024, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x1024, .f32⟩
  | .hbm, ⟨21, _⟩ => ⟨S4096x4x1024, .f32⟩
  | _, _ => ⟨S4096x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  transposes_S4096x4x1024_S4x4096x1024_1_0_2 : S4096x4x1024.Transposes [1, 0, 2] S4x4096x1024
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x1024_S4096x4x1024_1_0_2 : S4x4096x1024.Transposes [1, 0, 2] S4096x4x1024
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KBRuns.lean ====
/-
  What the three cases of the attention kernel's body share.

  The grid is 16 query tiles by 4 key tiles, the key tile innermost: point t is query tile t / 4 and key tile
  t % 4. The body resets its three scratch buffers (running maximum, running denominator, running numerator)
  at key tile 0, folds the current key tile into them at every point, and at key tile 3 divides and stores the
  query tile's result. So there are three cases by t % 4: 0 (reset, then fold), 1 or 2 (fold), 3 (fold, then
  store). Here: the array contents when the region is entered, each window's block at a point, the two
  conditions in closed form, where the output window is idle, and the memrefs the body is called with.
-/
import proofs.«424141_j81587198755253_3_alg».proof.Proof.Gen.Kernel.Launch
import proofs.«424141_j81587198755253_3_alg».proof.Proof.Gen.Kernel.Skeleton
import proofs.«424141_j81587198755253_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents after the two host operations before the region (the transpose to
    batch-major and the change of format). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "This is key tile 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is key tile 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S4x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4x1024 .f32 := win0_2.stage (cfg0.slots t 2)
abbrev hs0_2 (t : Fin cfg0.N) : (ms0_2 t).IsWhole := hstage0_2 ((cfg0.slots t 2).cast nbuf0_2)
/-- The three scratch buffers: running maximum, running denominator, running numerator. -/
abbrev scM0_0 : Memref sig .tc .vmem S4x256x1 .f32 := Memref.whole cc0_scratch0
abbrev scM0_1 : Memref sig .tc .vmem S4x256x1 .f32 := Memref.whole cc0_scratch1
abbrev scM0_2 : Memref sig .tc .vmem S4x256x1024 .f32 := Memref.whole cc0_scratch2
abbrev VS0_0 : View sig .tc .vmem S4x256x1 .f32 := scM0_0.view
abbrev VS0_1 : View sig .tc .vmem S4x256x1 .f32 := scM0_1.view
abbrev VS0_2 : View sig .tc .vmem S4x256x1024 .f32 := scM0_2.view
/-- One staging buffer of the output window, through which its contents are stated. -/
abbrev VO0_2 : View sig .tc .vmem S256x4x1024 .f32 := (Memref.whole cc0_stg2_0 : Memref sig .tc .vmem S256x4x1024 .f32).view

/-- What the launch hands the region of the core's own: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KBRunB.lean ====
/-
  The body at a point whose key tile is 1 or 2: it folds the key tile into the three scratch buffers, which it
  finds at what the point before left, and stores nothing into the output window.
-/
import proofs.«424141_j81587198755253_3_alg».proof.Proof.KBRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at such a point, with the pieces it leaves in each scratch buffer (last store first) as the
    witness: from the two input blocks `x0`, `x1`, the output window's buffer at any contents `xi2` (handed back
    untouched) and the scratch buffers at `xs0`, `xs1`, `xs2`. -/
noncomputable def kernelRun0_B (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) :
    Σ' (L2 : List (View.Piece (Elt F) S256x4x1024 .f32)) (LS0 : List (View.Piece (Elt F) S4x256x1 .f32)) (LS1 : List (View.Piece (Elt F) S4x256x1 .f32)), { LS2 : List (View.Piece (Elt F) S4x256x1024 .f32) //
      ∀ (xi2 : Vec F S256x4x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨[], ?_, ?_, ?_, fun xi2 E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.KBRunA.lean ====
/-
  The body at a point whose key tile is 0: it resets the three scratch buffers (whatever they held), folds the
  key tile into them, and stores nothing into the output window.
-/
import proofs.«424141_j81587198755253_3_alg».proof.Proof.KBRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at such a point, with the pieces it leaves in each scratch buffer as the witness: from the
    two input blocks, the output window's buffer at any contents `xi2` (handed back untouched) and the scratch
    buffers at anything. -/
noncomputable def kernelRun0_A (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) :
    Σ' (L2 : List (View.Piece (Elt F) S256x4x1024 .f32)) (LS0 : List (View.Piece (Elt F) S4x256x1 .f32)) (LS1 : List (View.Piece (Elt F) S4x256x1 .f32)), { LS2 : List (View.Piece (Elt F) S4x256x1024 .f32) //
      ∀ (xi2 : Vec F S256x4x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨[], ?_, ?_, ?_, fun xi2 E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.KBRunC.lean ====
/-
  The body at a point whose key tile is 3: it folds the key tile into the three scratch buffers, which it finds
  at what the point before left, then divides the running numerator by the running denominator and stores the
  query tile's result, position-major, into the output window.
-/
import proofs.«424141_j81587198755253_3_alg».proof.Proof.KBRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at such a point, with the pieces it leaves in the output window's buffer and in each
    scratch buffer as the witness: from the two input blocks, the output window's buffer at anything and the
    scratch buffers at `xs0`, `xs1`, `xs2`. -/
noncomputable def kernelRun0_C (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) :
    Σ' (L2 : List (View.Piece (Elt F) S256x4x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.KBOuts.lean ====
/-
  What each of the body's three cases leaves in the output window's buffer and in the three scratch buffers
  (running maximum, running denominator, running numerator), and what those buffers hold after every grid
  point, by recursion on the point: key tile 0 resets the scratch and folds, key tiles 1 and 2 fold over what
  the point before left, key tile 3 folds and then stores the quotient.
-/
import proofs.«424141_j81587198755253_3_alg».proof.Proof.KBRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output window: a placeholder nothing consults. -/
def out0_A_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S256x4x1024 .f32 :=
  VO0_2.read (Elt F) (VO0_2.writes (Elt F) VO0_2.junk (kernelRun0_A c i arg2 harg2 arg3 harg3 arg4 harg4 arg5 harg5 arg6 harg6 arg7 harg7 hc0 hc1 x0 x1).1)

/-- The pieces case A leaves there tile the buffer, so they cover it. -/
theorem scover0_A_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) (y : S4x256x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S4x256x1.size (by sl_kernel_rfl) y

/-- What case A leaves there: its pieces read back. -/
def sout0_A_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S4x256x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- The pieces case A leaves there tile the buffer, so they cover it. -/
theorem scover0_A_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) (y : S4x256x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S4x256x1.size (by sl_kernel_rfl) y

/-- What case A leaves there: its pieces read back. -/
def sout0_A_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S4x256x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- The pieces case A leaves there tile the buffer, so they cover it. -/
theorem scover0_A_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) (y : S4x256x1024.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S4x256x1024.size (by sl_kernel_rfl) y

/-- What case A leaves there: its pieces read back. -/
def sout0_A_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S4x256x1024 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- Case B stores nothing into the output window: a placeholder nothing consults. -/
def out0_B_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S256x4x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- The pieces case B leaves there tile the buffer, so they cover it. -/
theorem scover0_B_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S4x256x1.size (by sl_kernel_rfl) y

/-- What case B leaves there: its pieces read back. -/
def sout0_B_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- The pieces case B leaves there tile the buffer, so they cover it. -/
theorem scover0_B_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S4x256x1.size (by sl_kernel_rfl) y

/-- What case B leaves there: its pieces read back. -/
def sout0_B_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- The pieces case B leaves there tile the buffer, so they cover it. -/
theorem scover0_B_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1024.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S4x256x1024.size (by sl_kernel_rfl) y

/-- What case B leaves there: its pieces read back. -/
def sout0_B_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- The pieces case C leaves there tile the buffer, so they cover it. -/
theorem cover0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S256x4x1024.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S256x4x1024.size (by sl_kernel_rfl) y

/-- What case C leaves there: its pieces read back. -/
def out0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S256x4x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- The pieces case C leaves there tile the buffer, so they cover it. -/
theorem scover0_C_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S4x256x1.size (by sl_kernel_rfl) y

/-- What case C leaves there: its pieces read back. -/
def sout0_C_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- The pieces case C leaves there tile the buffer, so they cover it. -/
theorem scover0_C_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S4x256x1.size (by sl_kernel_rfl) y

/-- What case C leaves there: its pieces read back. -/
def sout0_C_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- The pieces case C leaves there tile the buffer, so they cover it. -/
theorem scover0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1024.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S4x256x1024.size (by sl_kernel_rfl) y

/-- What case C leaves there: its pieces read back. -/
def sout0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-! ## What the buffers hold after each point -/

/-- What the output window's buffer and the three scratch buffers hold after the body at point `n`: the case
    `n % 4` selects, run at the point's memrefs and input blocks, the scratch buffers found at what point `n - 1`
    left (case 0 resets them first, so it does not look back). -/
def outsAt0 (c : Dev nD) : (n : ℕ) → n < cfg0.N → Vec F S256x4x1024 .f32 × Vec F S4x256x1 .f32 × Vec F S4x256x1 .f32 × Vec F S4x256x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

end Cert.Kernel.Hand

end
-- ==== Proof.KBBody.lean ====
/-
  The invariant the attention kernel's body keeps between grid points (the three scratch buffers at what the
  point before left), the pipeline's proof data, and the body's obligation at every point. The two input
  windows read one array, which the proof data holds at two half shares; the output window's array is held whole.
-/
import proofs.«424141_j81587198755253_3_alg».proof.Proof.KBOuts

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at the start whatever the launch hands over; afterwards the three scratch buffers at what
    point `n - 1` left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer still at its block and the output's
    at what the point's case left; the invariant above; nothing owed; the shared input array at two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; `t % 4` says which case applies; the invariant
    hands over the scratch at what the point before left (anything, at the first point) and takes it back at this
    point's contents; at key tiles 0 to 2 the output window's buffer is handed back as found, at key tile 3 it is
    left at the stored quotient. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ )
            unfold owns; iexists _; isplitr
            swap; · iexact HS2
            ipureintro; exact View.read_writes_of_cover _ _ _ _ _ (scover0_A_2 c _ _ _ _ _ _ _ _ _ _ _ _ _ _ _ _ _ )
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ )
            unfold owns; iexists _; isplitr
            swap; · iexact HS2
            ipureintro; exact View.read_writes_of_cover _ _ _ _ _ (scover0_A_2 c _ _ _ _ _ _ _ _ _ _ _ _ _ _ _ _ _ )
          iexact Hg
        isplitl [Ho]; · iexact Ho
        isplitl [H0]; · iexact H0
        isplitl [H1]; · iexact H1
        iexists _; iexact H2
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1 sout0_C_2; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ )
          isplitl [HS1]
          · unfold owns; iexists _; isplitr
            swap; · iexact HS1
            ipureintro; exact View.read_writes_of_cover _ _ _ _ _ (scover0_C_1 c _ _ _ _ _ _ _ _ _ _ _ _ _ _ _ _ _ _ _ _ )
          unfold owns; iexists _; isplitr
          swap; · iexact HS2
          ipureintro; exact View.read_writes_of_cover _ _ _ _ _ (scover0_C_2 c _ _ _ _ _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _ )
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1 sout0_B_2; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ )
          isplitl [HS1]
          · unfold owns; iexists _; isplitr
            swap; · iexact HS1
            ipureintro; exact View.read_writes_of_cover _ _ _ _ _ (scover0_B_1 c _ _ _ _ _ _ _ _ _ _ _ _ _ _ _ _ _ _ _ _ )
          unfold owns; iexists _; isplitr
          swap; · iexact HS2
          ipureintro; exact View.read_writes_of_cover _ _ _ _ _ (scover0_B_2 c _ _ _ _ _ _ _ _ _ _ _ _ _ _ _ _ _ _ _ _ )
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.LibFrameShared.lean ====
/-
  The frame run of a table-less pipeline whose windows may share arrays.

  A pipeline region hands each window a share of the array behind it.  When every window has an array of its
  own, each array is held whole; when one array is read through several input windows, the buffer behind it is
  held once and must be divided among those windows.  The theorem below is the frame run with a tracking
  invariant in which that division is an explicit hypothesis: the buffers behind the windows' arrays, each whole
  at its contents at the region's entry, entail the proof data's arrays at entry.  Everything else is as for
  distinct arrays: the generator register and the scoped rest enter the invariant at point 0 and leave it after
  the last point, and every unscoped buffer that is no window's array bypasses the region unchanged.
-/
import Idealize.ShloMosaic.Lib.Pipeline.Frame

noncomputable section

namespace Cert.FrameShared

open Idealize.ShloMosaic
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Pipeline
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN with a TRACKING invariant for a pipeline that prefetches nothing and whose windows may share
    arrays.  The staging cells are pairwise distinct (`hinj`); the windows' layout holds with the arrays'
    distinctness left out (`hw`); no block is empty and the arrays and staging memrefs are whole buffers.  The body
    obligation holds at every point and the data owe nothing.  At the region's entry the unscoped buffers hold `V`
    (`hmain`), and the buffers behind the windows' arrays, each whole at `V`, make the data's arrays at point 0
    (`hsplit`): an array behind several input windows is divided among them, each window taking the share its datum
    names.  The class invariant yields the data's invariant before point 0 (`hin`) and is yielded back after the last
    point (`hout`).  Then every weakly fair execution from the launch memory terminates, every window's array ends at
    what the data compute for it after all points, and every other unscoped buffer ends at its entry contents. -/
theorem θ_run_frame_track_shared
    (hinj : Function.Injective (Pipeline.cellOf (nD := nD) (τ := τ) cfgs))
    (hw : Pipeline.WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (Pipeline.arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact Pipeline.θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (V c))
    (hX := fun c => by
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefsP sig Prefetch.none (cfg).spec, s.mem ((c.tc : Thread nD τ).loc b) = V c b)
    (hY := fun c s' => by
      iintro ⟨-, HU, HSI⟩
      unfold unscopedRestP
      imodintro
      iapply (pointsTo_read_all (restRefsP sig Prefetch.none (cfg).spec) (fun b => (c.tc : Thread nD τ).loc b) (V c) s')
      isplitl [HU] <;> iassumption)
    (hQ := fun s h c => ⟨fun w => (h c).1 w,
      rest_of_restP Prefetch.none (cfg).spec (fun k => k.elim0) c (V c) s (fun k => k.elim0) (h c).2.1 (h c).2.2⟩)

end Cert.FrameShared

end
-- ==== Proof.KBSplit.lean ====
/-
  The entry split of the kernel's arrays among its windows.

  The kernel's region has three windows over two arrays: both input windows read one array, the output window
  writes the other.  At the region's entry each of the two buffers is held once, whole, at the full share.  The
  pipeline wants each window's array at that window's share, so the read array's points-to is divided along the
  share into its left and right halves, one half per input window; the output's array goes to its window whole.
-/
import proofs.«424141_j81587198755253_3_alg».proof.Proof.Gen.Kernel.Launch
import Idealize.ShloMosaic.Lib.Pipeline.Frame

noncomputable section

namespace Cert.Kernel.Split

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.Kernel Cert.Kernel.Gen

variable {F : FTy → Type} [FloatOps F]

local notation "𝕄" => MT nD τ sig Unit (Elt F) ℕ (UR sig nD τ) ℕ

/-- The distinct buffers behind the three windows' arrays are two: the array both input windows read, and the
    output's array; each is whole at the full share at the contents `V`. -/
theorem arrBufs0_eq (c : Dev nD) (V : (b : Ref sig .tc) → Buf (Elt F) ((c.tc : Thread nD τ).loc b)) :
    (Pipeline.arrBufs spec0 c V : sProp 𝕄)
      = iprop((((c.tc : Thread nD τ).loc main_v1) ↦{fullShare} V main_v1) ∗ (((c.tc : Thread nD τ).loc main_v2) ↦{fullShare} V main_v2)) := by
  unfold Pipeline.arrBufs
  exact bigSep_eq_bigSepL_of_eq [main_v1, main_v2] (by decide) (by decide) _

/-- The entry split, for any proof datum whose entry arrays are `V`'s and whose two input windows take the left
    and the right half of the full share: the two buffers, whole at `V`, make the datum's arrays at point 0.
    Window 0 holds the read array at the left half, window 1 holds the same array at the right half (the two
    halves compose to the full share), and window 2, an output, holds its array at the full share. -/
theorem hsplit0 (c : Dev nD) (dat : Pipeline.Dat τ (Elt F) Unit ℕ (UR sig nD τ) ℕ cfg0 c)
    (V : (b : Ref sig .tc) → Buf (Elt F) ((c.tc : Thread nD τ).loc b))
    (hA : ∀ w, dat.A w = V (Pipeline.arrRef spec0 w))
    (hq0 : dat.q 0 = fullShare.left) (hq1 : dat.q 1 = fullShare.right) :
    (Pipeline.arrBufs spec0 c V : sProp 𝕄) ⊢ dat.arrays (dat.arrAt · 0) := by
  -- the shares the three windows hold: an input window its datum's, the output window the full one
  have hs0 : dat.share 0 = fullShare.left := by
    unfold Pipeline.Dat.share; rw [if_neg (by decide)]; exact hq0
  have hs1 : dat.share 1 = fullShare.right := by
    unfold Pipeline.Dat.share; rw [if_neg (by decide)]; exact hq1
  have hs2 : dat.share 2 = fullShare := by
    unfold Pipeline.Dat.share; rw [if_pos (by decide)]
  -- before any point nothing has been written back: each array is at its entry contents
  have e0 : dat.arrAt 0 0 = V main_v1 := hA 0
  have e1 : dat.arrAt 1 0 = V main_v1 := hA 1
  have e2 : dat.arrAt 2 0 = V main_v2 := hA 2
  rw [arrBufs0_eq]
  unfold Pipeline.Dat.arrays
  rw [bigSep_W0, hs0, hs1, hs2]
  beta_reduce
  -- a whole array's element set is every element of its buffer (windows 0 and 1 have one array)
  rw [e0, e1, e2, (arr_whole0 0).set_eq_univ, (arr_whole0 2).set_eq_univ]
  iintro ⟨H1, H2⟩
  -- the read array's buffer, divided along the share
  ihave H1' := (pointsTo_share (PosShare.mem_left_op_right fullShare)).1 $$ H1
  icases H1' with ⟨Ha, Hb⟩
  isplitl [Ha]; · iexact Ha
  isplitl [Hb]; · iexact Hb
  iexact H2

end Cert.Kernel.Split

end
-- ==== Proof.KBFrame.lean ====
/-
  The run of the whole attention program and its frame: every weakly fair execution terminates without a
  fault, each window's array ends at what the proof data computes, and the argument array ends unchanged.
  The two input windows read one array; the proof data holds it at two half shares.
-/
import proofs.«424141_j81587198755253_3_alg».proof.Proof.KBBody
import proofs.«424141_j81587198755253_3_alg».proof.Proof.LibFrameShared
import proofs.«424141_j81587198755253_3_alg».proof.Proof.KBSplit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- Every weakly fair execution of the program terminates, and every final state has each window's array at what
    the proof data computes and every other unscoped buffer as the region found it. -/
theorem run_main : θ_run defs (onTc (τ := τ) (main (F := F))) (s₀ m ρ) (Pipeline.FramePost cfgs (dats m) 0 (V m)) :=
  Cert.FrameShared.θ_run_frame_track_shared cfgs (dats m) (0 : Fin 1) defs₀ Variants.none cellOf_inj winFacts₀0 block_pos0 arr_whole0 stage_whole0
    m ρ main (fun c => (body_obligation m c).loose) (fun _ _ => rfl) (V m) (hmain m Variants.none)
    (fun c => Cert.Kernel.Split.hsplit0 c (dats m 0 c) (V m c) (A_eq m c) rfl rfl) (hin m) (hout m)

/-- The program runs and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) (run_main m ρ)

end Cert.Kernel.Hand

end
-- ==== Proof.KIRuns.lean ====
/-
  What the three cases of the attention kernel's body share.

  The grid is 16 query tiles by 4 key tiles, the key tile innermost: point t is query tile t / 4 and key tile
  t % 4. The body resets its three scratch buffers (running maximum, running denominator, running numerator)
  at key tile 0, folds the current key tile into them at every point, and at key tile 3 divides and stores the
  query tile's result. So there are three cases by t % 4: 0 (reset, then fold), 1 or 2 (fold), 3 (fold, then
  store). Here: the array contents when the region is entered, each window's block at a point, the two
  conditions in closed form, where the output window is idle, and the memrefs the body is called with.
-/
import proofs.«424141_j81587198755253_3_alg».proof.Proof.Gen.KernelIdeal.Launch
import proofs.«424141_j81587198755253_3_alg».proof.Proof.Gen.KernelIdeal.Skeleton
import proofs.«424141_j81587198755253_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents after the two host operations before the region (the transpose to
    batch-major and the change of format). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "This is key tile 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is key tile 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S4x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4x1024 .f32 := win0_2.stage (cfg0.slots t 2)
abbrev hs0_2 (t : Fin cfg0.N) : (ms0_2 t).IsWhole := hstage0_2 ((cfg0.slots t 2).cast nbuf0_2)
/-- The three scratch buffers: running maximum, running denominator, running numerator. -/
abbrev scM0_0 : Memref sig .tc .vmem S4x256x1 .f32 := Memref.whole cc0_scratch0
abbrev scM0_1 : Memref sig .tc .vmem S4x256x1 .f32 := Memref.whole cc0_scratch1
abbrev scM0_2 : Memref sig .tc .vmem S4x256x1024 .f32 := Memref.whole cc0_scratch2
abbrev VS0_0 : View sig .tc .vmem S4x256x1 .f32 := scM0_0.view
abbrev VS0_1 : View sig .tc .vmem S4x256x1 .f32 := scM0_1.view
abbrev VS0_2 : View sig .tc .vmem S4x256x1024 .f32 := scM0_2.view
/-- One staging buffer of the output window, through which its contents are stated. -/
abbrev VO0_2 : View sig .tc .vmem S256x4x1024 .f32 := (Memref.whole cc0_stg2_0 : Memref sig .tc .vmem S256x4x1024 .f32).view

/-- What the launch hands the region of the core's own: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KIRunB.lean ====
/-
  The body at a point whose key tile is 1 or 2: it folds the key tile into the three scratch buffers, which it
  finds at what the point before left, and stores nothing into the output window.
-/
import proofs.«424141_j81587198755253_3_alg».proof.Proof.KIRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at such a point, with the pieces it leaves in each scratch buffer (last store first) as the
    witness: from the two input blocks `x0`, `x1`, the output window's buffer at any contents `xi2` (handed back
    untouched) and the scratch buffers at `xs0`, `xs1`, `xs2`. -/
noncomputable def kernelRun0_B (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) :
    Σ' (L2 : List (View.Piece (Elt F) S256x4x1024 .f32)) (LS0 : List (View.Piece (Elt F) S4x256x1 .f32)) (LS1 : List (View.Piece (Elt F) S4x256x1 .f32)), { LS2 : List (View.Piece (Elt F) S4x256x1024 .f32) //
      ∀ (xi2 : Vec F S256x4x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨[], ?_, ?_, ?_, fun xi2 E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KIRunA.lean ====
/-
  The body at a point whose key tile is 0: it resets the three scratch buffers (whatever they held), folds the
  key tile into them, and stores nothing into the output window.
-/
import proofs.«424141_j81587198755253_3_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at such a point, with the pieces it leaves in each scratch buffer as the witness: from the
    two input blocks, the output window's buffer at any contents `xi2` (handed back untouched) and the scratch
    buffers at anything. -/
noncomputable def kernelRun0_A (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) :
    Σ' (L2 : List (View.Piece (Elt F) S256x4x1024 .f32)) (LS0 : List (View.Piece (Elt F) S4x256x1 .f32)) (LS1 : List (View.Piece (Elt F) S4x256x1 .f32)), { LS2 : List (View.Piece (Elt F) S4x256x1024 .f32) //
      ∀ (xi2 : Vec F S256x4x1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨[], ?_, ?_, ?_, fun xi2 E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KIRunC.lean ====
/-
  The body at a point whose key tile is 3: it folds the key tile into the three scratch buffers, which it finds
  at what the point before left, then divides the running numerator by the running denominator and stores the
  query tile's result, position-major, into the output window.
-/
import proofs.«424141_j81587198755253_3_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at such a point, with the pieces it leaves in the output window's buffer and in each
    scratch buffer as the witness: from the two input blocks, the output window's buffer at anything and the
    scratch buffers at `xs0`, `xs1`, `xs2`. -/
noncomputable def kernelRun0_C (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) :
    Σ' (L2 : List (View.Piece (Elt F) S256x4x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KIOuts.lean ====
/-
  What each of the body's three cases leaves in the output window's buffer and in the three scratch buffers
  (running maximum, running denominator, running numerator), and what those buffers hold after every grid
  point, by recursion on the point: key tile 0 resets the scratch and folds, key tiles 1 and 2 fold over what
  the point before left, key tile 3 folds and then stores the quotient.
-/
import proofs.«424141_j81587198755253_3_alg».proof.Proof.KIRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output window: a placeholder nothing consults. -/
def out0_A_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S256x4x1024 .f32 :=
  VO0_2.read (Elt F) (VO0_2.writes (Elt F) VO0_2.junk (kernelRun0_A c i arg2 harg2 arg3 harg3 arg4 harg4 arg5 harg5 arg6 harg6 arg7 harg7 hc0 hc1 x0 x1).1)

/-- The pieces case A leaves there tile the buffer, so they cover it. -/
theorem scover0_A_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) (y : S4x256x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S4x256x1.size (by sl_kernel_rfl) y

/-- What case A leaves there: its pieces read back. -/
def sout0_A_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S4x256x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- The pieces case A leaves there tile the buffer, so they cover it. -/
theorem scover0_A_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) (y : S4x256x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S4x256x1.size (by sl_kernel_rfl) y

/-- What case A leaves there: its pieces read back. -/
def sout0_A_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S4x256x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- The pieces case A leaves there tile the buffer, so they cover it. -/
theorem scover0_A_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) (y : S4x256x1024.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S4x256x1024.size (by sl_kernel_rfl) y

/-- What case A leaves there: its pieces read back. -/
def sout0_A_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) : Vec F S4x256x1024 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- Case B stores nothing into the output window: a placeholder nothing consults. -/
def out0_B_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S256x4x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- The pieces case B leaves there tile the buffer, so they cover it. -/
theorem scover0_B_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S4x256x1.size (by sl_kernel_rfl) y

/-- What case B leaves there: its pieces read back. -/
def sout0_B_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- The pieces case B leaves there tile the buffer, so they cover it. -/
theorem scover0_B_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S4x256x1.size (by sl_kernel_rfl) y

/-- What case B leaves there: its pieces read back. -/
def sout0_B_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- The pieces case B leaves there tile the buffer, so they cover it. -/
theorem scover0_B_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1024.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S4x256x1024.size (by sl_kernel_rfl) y

/-- What case B leaves there: its pieces read back. -/
def sout0_B_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- The pieces case C leaves there tile the buffer, so they cover it. -/
theorem cover0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S256x4x1024.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S256x4x1024.size (by sl_kernel_rfl) y

/-- What case C leaves there: its pieces read back. -/
def out0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S256x4x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- The pieces case C leaves there tile the buffer, so they cover it. -/
theorem scover0_C_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S4x256x1.size (by sl_kernel_rfl) y

/-- What case C leaves there: its pieces read back. -/
def sout0_C_0 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- The pieces case C leaves there tile the buffer, so they cover it. -/
theorem scover0_C_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S4x256x1.size (by sl_kernel_rfl) y

/-- What case C leaves there: its pieces read back. -/
def sout0_C_1 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- The pieces case C leaves there tile the buffer, so they cover it. -/
theorem scover0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) (y : S4x256x1024.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S4x256x1024.size (by sl_kernel_rfl) y

/-- What case C leaves there: its pieces read back. -/
def sout0_C_2 (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-! ## What the buffers hold after each point -/

/-- What the output window's buffer and the three scratch buffers hold after the body at point `n`: the case
    `n % 4` selects, run at the point's memrefs and input blocks, the scratch buffers found at what point `n - 1`
    left (case 0 resets them first, so it does not look back). -/
def outsAt0 (c : Dev nD) : (n : ℕ) → n < cfg0.N → Vec F S256x4x1024 .f32 × Vec F S4x256x1 .f32 × Vec F S4x256x1 .f32 × Vec F S4x256x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Hand

end
-- ==== Proof.KIBody.lean ====
/-
  The invariant the attention kernel's body keeps between grid points (the three scratch buffers at what the
  point before left), the pipeline's proof data, and the body's obligation at every point. The two input
  windows read one array, which the proof data holds at two half shares; the output window's array is held whole.
-/
import proofs.«424141_j81587198755253_3_alg».proof.Proof.KIOuts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at the start whatever the launch hands over; afterwards the three scratch buffers at what
    point `n - 1` left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer still at its block and the output's
    at what the point's case left; the invariant above; nothing owed; the shared input array at two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; `t % 4` says which case applies; the invariant
    hands over the scratch at what the point before left (anything, at the first point) and takes it back at this
    point's contents; at key tiles 0 to 2 the output window's buffer is handed back as found, at key tile 3 it is
    left at the stored quotient. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ )
            unfold owns; iexists _; isplitr
            swap; · iexact HS2
            ipureintro; exact View.read_writes_of_cover _ _ _ _ _ (scover0_A_2 c _ _ _ _ _ _ _ _ _ _ _ _ _ _ _ _ _ )
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ )
            isplitl [HS1]
            · unfold owns; iexists _; isplitr
              swap; · iexact HS1
              ipureintro; exact View.read_writes_of_cover _ _ _ _ _ (scover0_A_1 c _ _ _ _ _ _ _ _ _ _ _ _ _ _ _ _ _ )
            unfold owns; iexists _; isplitr
            swap; · iexact HS2
            ipureintro; exact View.read_writes_of_cover _ _ _ _ _ (scover0_A_2 c _ _ _ _ _ _ _ _ _ _ _ _ _ _ _ _ _ )
          iexact Hg
        isplitl [Ho]; · iexact Ho
        isplitl [H0]; · iexact H0
        isplitl [H1]; · iexact H1
        iexists _; iexact H2
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1 sout0_C_2; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ )
          isplitl [HS1]
          · unfold owns; iexists _; isplitr
            swap; · iexact HS1
            ipureintro; exact View.read_writes_of_cover _ _ _ _ _ (scover0_C_1 c _ _ _ _ _ _ _ _ _ _ _ _ _ _ _ _ _ _ _ _ )
          unfold owns; iexists _; isplitr
          swap; · iexact HS2
          ipureintro; exact View.read_writes_of_cover _ _ _ _ _ (scover0_C_2 c _ _ _ _ _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _ )
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1 sout0_B_2; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ )
          isplitl [HS1]
          · unfold owns; iexists _; isplitr
            swap; · iexact HS1
            ipureintro; exact View.read_writes_of_cover _ _ _ _ _ (scover0_B_1 c _ _ _ _ _ _ _ _ _ _ _ _ _ _ _ _ _ _ _ _ )
          unfold owns; iexists _; isplitr
          swap; · iexact HS2
          ipureintro; exact View.read_writes_of_cover _ _ _ _ _ (scover0_B_2 c _ _ _ _ _ _ _ _ _ _ _ _ _ _ _ _ _ _ _ _ )
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KISplit.lean ====
/-
  The entry split of the kernel's arrays among its windows.

  The kernel's region has three windows over two arrays: both input windows read one array, the output window
  writes the other.  At the region's entry each of the two buffers is held once, whole, at the full share.  The
  pipeline wants each window's array at that window's share, so the read array's points-to is divided along the
  share into its left and right halves, one half per input window; the output's array goes to its window whole.
-/
import proofs.«424141_j81587198755253_3_alg».proof.Proof.Gen.KernelIdeal.Launch
import Idealize.ShloMosaic.Lib.Pipeline.Frame

noncomputable section

namespace Cert.KernelIdeal.Split

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

local notation "𝕄" => MT nD τ sig Unit (Elt F) ℕ (UR sig nD τ) ℕ

/-- The distinct buffers behind the three windows' arrays are two: the array both input windows read, and the
    output's array; each is whole at the full share at the contents `V`. -/
theorem arrBufs0_eq (c : Dev nD) (V : (b : Ref sig .tc) → Buf (Elt F) ((c.tc : Thread nD τ).loc b)) :
    (Pipeline.arrBufs spec0 c V : sProp 𝕄)
      = iprop((((c.tc : Thread nD τ).loc main_v1) ↦{fullShare} V main_v1) ∗ (((c.tc : Thread nD τ).loc main_v2) ↦{fullShare} V main_v2)) := by
  unfold Pipeline.arrBufs
  exact bigSep_eq_bigSepL_of_eq [main_v1, main_v2] (by decide) (by decide) _

/-- The entry split, for any proof datum whose entry arrays are `V`'s and whose two input windows take the left
    and the right half of the full share: the two buffers, whole at `V`, make the datum's arrays at point 0.
    Window 0 holds the read array at the left half, window 1 holds the same array at the right half (the two
    halves compose to the full share), and window 2, an output, holds its array at the full share. -/
theorem hsplit0 (c : Dev nD) (dat : Pipeline.Dat τ (Elt F) Unit ℕ (UR sig nD τ) ℕ cfg0 c)
    (V : (b : Ref sig .tc) → Buf (Elt F) ((c.tc : Thread nD τ).loc b))
    (hA : ∀ w, dat.A w = V (Pipeline.arrRef spec0 w))
    (hq0 : dat.q 0 = fullShare.left) (hq1 : dat.q 1 = fullShare.right) :
    (Pipeline.arrBufs spec0 c V : sProp 𝕄) ⊢ dat.arrays (dat.arrAt · 0) := by
  -- the shares the three windows hold: an input window its datum's, the output window the full one
  have hs0 : dat.share 0 = fullShare.left := by
    unfold Pipeline.Dat.share; rw [if_neg (by decide)]; exact hq0
  have hs1 : dat.share 1 = fullShare.right := by
    unfold Pipeline.Dat.share; rw [if_neg (by decide)]; exact hq1
  have hs2 : dat.share 2 = fullShare := by
    unfold Pipeline.Dat.share; rw [if_pos (by decide)]
  -- before any point nothing has been written back: each array is at its entry contents
  have e0 : dat.arrAt 0 0 = V main_v1 := hA 0
  have e1 : dat.arrAt 1 0 = V main_v1 := hA 1
  have e2 : dat.arrAt 2 0 = V main_v2 := hA 2
  rw [arrBufs0_eq]
  unfold Pipeline.Dat.arrays
  rw [bigSep_W0, hs0, hs1, hs2]
  beta_reduce
  -- a whole array's element set is every element of its buffer (windows 0 and 1 have one array)
  rw [e0, e1, e2, (arr_whole0 0).set_eq_univ, (arr_whole0 2).set_eq_univ]
  iintro ⟨H1, H2⟩
  -- the read array's buffer, divided along the share
  ihave H1' := (pointsTo_share (PosShare.mem_left_op_right fullShare)).1 $$ H1
  icases H1' with ⟨Ha, Hb⟩
  isplitl [Ha]; · iexact Ha
  isplitl [Hb]; · iexact Hb
  iexact H2

end Cert.KernelIdeal.Split

end
-- ==== Proof.KIFrame.lean ====
/-
  The run of the whole attention program and its frame: every weakly fair execution terminates without a
  fault, each window's array ends at what the proof data computes, and the argument array ends unchanged.
  The two input windows read one array; the proof data holds it at two half shares.
-/
import proofs.«424141_j81587198755253_3_alg».proof.Proof.KIBody
import proofs.«424141_j81587198755253_3_alg».proof.Proof.LibFrameShared
import proofs.«424141_j81587198755253_3_alg».proof.Proof.KISplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- Every weakly fair execution of the program terminates, and every final state has each window's array at what
    the proof data computes and every other unscoped buffer as the region found it. -/
theorem run_main : θ_run defs (onTc (τ := τ) (main (F := F))) (s₀ m ρ) (Pipeline.FramePost cfgs (dats m) 0 (V m)) :=
  Cert.FrameShared.θ_run_frame_track_shared cfgs (dats m) (0 : Fin 1) defs₀ Variants.none cellOf_inj winFacts₀0 block_pos0 arr_whole0 stage_whole0
    m ρ main (fun c => (body_obligation m c).loose) (fun _ _ => rfl) (V m) (hmain m Variants.none)
    (fun c => Cert.KernelIdeal.Split.hsplit0 c (dats m 0 c) (V m c) (A_eq m c) rfl rfl) (hin m) (hout m)

/-- The program runs and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) (run_main m ρ)

end Cert.KernelIdeal.Hand

end
-- ==== Proof.KIBlocks.lean ====
/-
  The two input windows' blocks as functions of the argument array, at exact values.

  The argument x is indexed [position, batch, feature] (4096 × 4 × 1024). Before the region the host exchanges
  the first two axes and changes the format; at exact values the change of format is the identity, so the
  array both input windows read holds x[s, b, d] at [b, s, d]. The query window's block at point t is the 256
  rows of query tile t / 4, and the key window's block is the 1024 rows of key tile t % 4, all batches and
  features: each block entry is one entry of x, at the row the tile starts at plus the row inside the block.
-/
import proofs.«424141_j81587198755253_3_alg».proof.Proof.KIRuns
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

/-- The argument array on core `c`, as a function of its index. -/
abbrev argX (c : Dev nD) : S4096x4x1024.Idx → EReal := m ((c : Thread nD τ).loc main_arg0)

/-- The array both input windows read is the argument with its first two axes exchanged: the change of format
    is the identity on exact values. -/
theorem V_main_v1_apply (c : Dev nD) (b : Fin 4) (s : Fin 4096) (d : Fin 1024) :
    V (F := Ideal) m c main_v1 (ix3 b s d) = argX m c (ix3 s b d) := by
  have e : @Eq (S4x4096x1024.Idx → EReal) (V (F := Ideal) m c main_v1)
      (truncf (F := Ideal) .bf16 (transpose S4x4096x1024 [1, 0, 2] (argX m c) transposes_S4096x4x1024_S4x4096x1024_1_0_2) bitsLt_bf16_f32) := by
    dsimp only [V, hostOps0]; after_results
  rw [e, truncf_apply]
  exact transpose_apply [1, 0, 2] (argX m c) transposes_S4096x4x1024_S4x4096x1024_1_0_2 (ix3 b s d) (ix3 s b d)
    (fun a => match a with
      | ⟨0, _⟩ => rfl
      | ⟨1, _⟩ => rfl
      | ⟨2, _⟩ => rfl)

/-- The query window's block index at point `t`: the query tile `t / 4` on the row axis, nothing on the others. -/
theorem idx0 : ∀ t : Fin cfg0.N, win0_0.index t (1 : Fin 3) = t.val / 4 ∧ win0_0.index t (0 : Fin 3) = 0 ∧ win0_0.index t (2 : Fin 3) = 0 :=
  (by decide +kernel : ∀ t : Fin grid0.N, _)

/-- The key window's block index at point `t`: the key tile `t % 4` on the row axis, nothing on the others. -/
theorem idx1 : ∀ t : Fin cfg0.N, win0_1.index t (1 : Fin 3) = t.val % 4 ∧ win0_1.index t (0 : Fin 3) = 0 ∧ win0_1.index t (2 : Fin 3) = 0 :=
  (by decide +kernel : ∀ t : Fin grid0.N, _)

/-- The output window's block index at point `t`: the query tile `t / 4` on the row axis, nothing on the others. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- The query block at point `t`: rows `256 · (t / 4) …` of the argument, batch-major. -/
theorem iblk0_apply (c : Dev nD) (t : Fin cfg0.N) (b : Fin 4) (r : Fin 256) (d : Fin 1024) :
    iblk (F := Ideal) m c 0 t (ix3 b r d)
      = argX m c (ix3 ⟨256 * (t.val / 4) + r.val, by have := t.isLt; have : cfg0.N = 64 := N_0; omega⟩ b d) := by
  obtain ⟨e1, e0, e2⟩ := idx0 t
  have hemb : ((cfg0.win 0).blk t).view.emb (ix3 b r d)
      = ix3 b (⟨256 * (t.val / 4) + r.val, by have := t.isLt; have : cfg0.N = 64 := N_0; omega⟩ : Fin 4096) d := by
    funext a; apply Fin.ext
    match a with
    | ⟨0, _⟩ => show win0_0.index t (0 : Fin 3) * 4 + 1 * b.val = b.val; omega
    | ⟨1, _⟩ => show win0_0.index t (1 : Fin 3) * 256 + 1 * r.val = 256 * (t.val / 4) + r.val; omega
    | ⟨2, _⟩ => show win0_0.index t (2 : Fin 3) * 1024 + 1 * d.val = d.val; omega
  show V (F := Ideal) m c main_v1 (((cfg0.win 0).blk t).view.emb (ix3 b r d)) = _
  rw [hemb, V_main_v1_apply]

/-- The key block at point `t`: rows `1024 · (t % 4) …` of the argument, batch-major. -/
theorem iblk1_apply (c : Dev nD) (t : Fin cfg0.N) (b : Fin 4) (k : Fin 1024) (d : Fin 1024) :
    iblk (F := Ideal) m c 1 t (ix3 b k d)
      = argX m c (ix3 ⟨1024 * (t.val % 4) + k.val, by omega⟩ b d) := by
  obtain ⟨e1, e0, e2⟩ := idx1 t
  have hemb : ((cfg0.win 1).blk t).view.emb (ix3 b k d)
      = ix3 b (⟨1024 * (t.val % 4) + k.val, by omega⟩ : Fin 4096) d := by
    funext a; apply Fin.ext
    match a with
    | ⟨0, _⟩ => show win0_1.index t (0 : Fin 3) * 4 + 1 * b.val = b.val; omega
    | ⟨1, _⟩ => show win0_1.index t (1 : Fin 3) * 1024 + 1 * k.val = 1024 * (t.val % 4) + k.val; omega
    | ⟨2, _⟩ => show win0_1.index t (2 : Fin 3) * 1024 + 1 * d.val = d.val; omega
  show V (F := Ideal) m c main_v1 (((cfg0.win 1).blk t).view.emb (ix3 b k d)) = _
  rw [hemb, V_main_v1_apply]

end Cert.KernelIdeal.Hand

end
-- ==== Proof.Spec.lean ====
/-
  The function both programs compute, stated once over the reals.

  The input is an array x[s, b, d] (4096 positions, 4 batches, 1024 features). For a batch b the score of
  position s against position t is the inner product of their feature rows scaled by 1/32,
      score b s t = (Σ_d x[s,b,d] · x[t,b,d]) / 32,
  and the result at (s, b, d) is the softmax-weighted mean of the feature column d over the positions t,
      attn s b d = (Σ_t exp(score b s t) · x[t,b,d]) / (Σ_t exp(score b s t)).
  No row maximum is subtracted here: subtracting any real number from every score of a row leaves the
  quotient unchanged, which is what lets two programs that subtract different numbers agree.
  `G` reads an array of extended reals through `EReal.toReal`; it is used only where every entry is a real.
-/
import Idealize.ShloMosaic.Lib.ValueIdx
import Mathlib.Analysis.SpecialFunctions.Exp
import Mathlib.Data.EReal.Basic

noncomputable section

namespace Cert.Attn

open Idealize.ShloMosaic Idealize.ShloMosaic.ValueIdx
open scoped BigOperators

/-- The array's shape: positions × batches × features. -/
abbrev SIn : Shape := ⟨3, ![4096, 4, 1024]⟩

/-- The scaled inner product of the feature rows of positions `s` and `t` in batch `b`. -/
def score (x : Fin 4096 → Fin 4 → Fin 1024 → ℝ) (b : Fin 4) (s t : Fin 4096) : ℝ :=
  (∑ d : Fin 1024, x s b d * x t b d) * (1 / 32)

/-- The softmax-weighted mean of feature column `d` over all positions, for position `s` of batch `b`. -/
def attn (x : Fin 4096 → Fin 4 → Fin 1024 → ℝ) (s : Fin 4096) (b : Fin 4) (d : Fin 1024) : ℝ :=
  (∑ t : Fin 4096, Real.exp (score x b s t) * x t b d) / (∑ t : Fin 4096, Real.exp (score x b s t))

/-- An array of extended reals read as an array of reals, by coordinates. -/
def realOf (X : SIn.Idx → EReal) : Fin 4096 → Fin 4 → Fin 1024 → ℝ :=
  fun s b d => (X (ix3 s b d)).toReal

/-- The result array: `attn` of the input's real entries, at each index. -/
def G (X : SIn.Idx → EReal) : SIn.Idx → EReal :=
  fun i => ((attn (realOf X) (i 0) (i 1) (i 2) : ℝ) : EReal)

theorem G_ix3 (X : SIn.Idx → EReal) (s : Fin 4096) (b : Fin 4) (d : Fin 1024) :
    G X (ix3 s b d) = ((attn (realOf X) s b d : ℝ) : EReal) := rfl

/-- Where every entry is a real number, the array is the coercion of its real reading. -/
theorem eq_coe_realOf (X : SIn.Idx → EReal) (hX : ∀ i, ∃ r : ℝ, X i = (r : EReal)) (s : Fin 4096) (b : Fin 4) (d : Fin 1024) :
    X (ix3 s b d) = ((realOf X s b d : ℝ) : EReal) := by
  obtain ⟨r, hr⟩ := hX (ix3 s b d)
  unfold realOf; rw [hr]; rfl

end Cert.Attn

end
-- ==== Proof.KIFinal.lean ====
/-
  From the output window's blocks to the whole output array.

  The output array is indexed [position, batch, feature] (4096 × 4 × 1024); the output window's block is 256
  positions, every batch and feature, and the block of point t sits at positions 256 · (t / 4) …. The window is
  written back exactly at the last key tile of each query tile (t % 4 = 3), so sixteen write-backs tile the
  array: position s is covered by point 4 · (s / 256) + 3. Hence, if the block left at each writing point is the
  matching block of one whole-array function, the array ends holding that function.
-/
import proofs.«424141_j81587198755253_3_alg».proof.Proof.KIBody
import proofs.«424141_j81587198755253_3_alg».proof.Proof.Spec
import proofs.«424141_j81587198755253_3_alg».proof.Proof.KIBlocks
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

/-- An index of the output array is in point `t`'s block iff each coordinate is in the block's range on its axis. -/
theorem mem_outBlock (t : Fin cfg0.N) (i : S4096x4x1024.Idx) :
    i ∈ ((cfg0.win 2).blk t).view.set ↔ ∀ a : Fin 3, win0_2.index t a * S256x4x1024.size a ≤ (i a).val ∧ (i a).val < win0_2.index t a * S256x4x1024.size a + S256x4x1024.size a := by
  show i ∈ ((View.whole main_v2).slice (win0_2.rect t)).set ↔ _
  rw [View.set_slice_whole, Rect.mem_set_unit]
  exact Iff.rfl

/-- Where the output block of point `t` sits in the array: rows `256 · (t / 4) …`, every batch and feature. -/
theorem outBlock_emb (t : Fin cfg0.N) (r : Fin 256) (b : Fin 4) (d : Fin 1024) :
    ((cfg0.win 2).blk t).view.emb (ix3 r b d)
      = ix3 (⟨256 * (t.val / 4) + r.val, by have := t.isLt; have : cfg0.N = 64 := N_0; omega⟩ : Fin 4096) b d := by
  obtain ⟨e0, e1, e2⟩ := idx2 t
  funext a; apply Fin.ext
  match a with
  | ⟨0, _⟩ => show win0_2.index t (0 : Fin 3) * 256 + 1 * r.val = 256 * (t.val / 4) + r.val; omega
  | ⟨1, _⟩ => show win0_2.index t (1 : Fin 3) * 4 + 1 * b.val = b.val; omega
  | ⟨2, _⟩ => show win0_2.index t (2 : Fin 3) * 1024 + 1 * d.val = d.val; omega

/-- Every index of the output array is in the block of a point that writes back: row `s` is covered by the last
    key tile of query tile `s / 256`. -/
theorem outBlocks_cover (i : S4096x4x1024.Idx) :
    ∃ t : Fin cfg0.N, (cfg0.win 2).flush t = true ∧ i ∈ ((cfg0.win 2).blk t).view.set := by
  have hi0 : (i 0).val < 4096 := (i 0).isLt
  have hi1 : (i 1).val < 4 := (i 1).isLt
  have hi2 : (i 2).val < 1024 := (i 2).isLt
  have hN : cfg0.N = 64 := N_0
  refine ⟨⟨4 * ((i 0).val / 256) + 3, by omega⟩, (flush0_2 _).mpr (by show (4 * ((i 0).val / 256) + 3) % 4 = 3; omega), ?_⟩
  rw [mem_outBlock]
  obtain ⟨e0, e1, e2⟩ := idx2 (⟨4 * ((i 0).val / 256) + 3, by omega⟩ : Fin cfg0.N)
  have e0' : win0_2.index (⟨4 * ((i 0).val / 256) + 3, by omega⟩ : Fin cfg0.N) (0 : Fin 3) = (4 * ((i 0).val / 256) + 3) / 4 := e0
  intro a
  match a with
  | ⟨0, _⟩ => show win0_2.index _ (0 : Fin 3) * 256 ≤ (i 0).val ∧ (i 0).val < win0_2.index _ (0 : Fin 3) * 256 + 256; omega
  | ⟨1, _⟩ => show win0_2.index _ (1 : Fin 3) * 4 ≤ (i 1).val ∧ (i 1).val < win0_2.index _ (1 : Fin 3) * 4 + 4; omega
  | ⟨2, _⟩ => show win0_2.index _ (2 : Fin 3) * 1024 ≤ (i 2).val ∧ (i 2).val < win0_2.index _ (2 : Fin 3) * 1024 + 1024; omega

/-- From blocks to the array, for any proof datum whose output window is left, at each point, at `out t`: if at
    every point that writes back the block left is the block of one whole-array function `Gf`, the output array ends
    holding `Gf`. -/
theorem arrAt_of_blocks {c : Dev nD} (dat : Dat τ (Elt Ideal) Unit ℕ (UR sig nD τ) ℕ cfg0 c)
    (out : (t : Fin cfg0.N) → S256x4x1024.Idx → EReal) (hafter : ∀ t, dat.after 2 t = out t)
    (Gf : S4096x4x1024.Idx → EReal)
    (hblk : ∀ t : Fin cfg0.N, t.val % 4 = 3 → ∀ (r : Fin 256) (b : Fin 4) (d : Fin 1024),
      out t (ix3 r b d) = Gf (ix3 ⟨256 * (t.val / 4) + r.val, by have := t.isLt; have : cfg0.N = 64 := N_0; omega⟩ b d)) :
    dat.arrAt 2 cfg0.N = Gf := by
  refine dat.arrAt_eq_of_cover 2 Gf (fun t ht => ?_) outBlocks_cover
  show (cfg0.win 2).cut (grid0.coords t) (dat.after 2 t) = _
  rw [hafter]
  funext j
  obtain ⟨r, b, d, rfl⟩ : ∃ (r : Fin 256) (b : Fin 4) (d : Fin 1024), j = ix3 r b d := ⟨j 0, j 1, j 2, eq_ix3 j⟩
  show out t (ix3 r b d) = Gf (((cfg0.win 2).blk t).view.emb (ix3 r b d))
  rw [outBlock_emb, hblk t ((flush0_2 t).mp ht)]

/-- The kernel's output array after the run: if at every point of the last key tile the stored block is the block
    of `Gf` at the query tile's rows, the array is `Gf`. -/
theorem final_of_blocks (c : Dev nD) (Gf : S4096x4x1024.Idx → EReal)
    (hblk : ∀ t : Fin cfg0.N, t.val % 4 = 3 → ∀ (r : Fin 256) (b : Fin 4) (d : Fin 1024),
      (outsAt0 (F := Ideal) m c t.val t.isLt).1 (ix3 r b d)
        = Gf (ix3 ⟨256 * (t.val / 4) + r.val, by have := t.isLt; have : cfg0.N = 64 := N_0; omega⟩ b d)) :
    (dats (F := Ideal) m 0 c).arrAt 2 cfg0.N = Gf :=
  arrAt_of_blocks (dats (F := Ideal) m 0 c) (fun t => (outsAt0 (F := Ideal) m c t.val t.isLt).1) (after0_2 m c) Gf hblk

end Cert.KernelIdeal.Hand

end
-- ==== Proof.KIPieces.lean ====
/-
  What the pieces each case of the body leaves in the scratch buffers and in the output window's buffer are, as
  terms of the case's inputs: the query block, the key block, and what the three scratch buffers (running
  maximum, running denominator, running numerator) held. Every store of the body fills its whole buffer, so a
  buffer's contents after the case are the payload of the last store into it, and a load reads the payload of
  the last store before it, or the contents the case found if there was none.
-/
import proofs.«424141_j81587198755253_3_alg».proof.Proof.KIOuts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offsets of every load and store of the body are zero. -/
theorem offsets_zero3 : (![0, 0, 0] : Fin 3 → Nat) = fun _ => 0 :=
  funext fun a => by match a with | ⟨0, _⟩ => rfl | ⟨1, _⟩ => rfl | ⟨2, _⟩ => rfl

/-! ## Key tiles 1 and 2: the fold over what the scratch buffers held

Each scratch buffer receives one store: the new running maximum, the rescaled denominator plus the tile's sum of
exponentials, and the rescaled numerator plus the tile's weighted rows. The running maximum is loaded twice before
its store, so both loads read what the buffer held. -/

theorem sout0_B_0_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S4x256x1) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3]

theorem sout0_B_1_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) :
    sout0_B_1 c i arg2 harg2 arg3 harg3 arg4 harg4 arg5 harg5 arg6 harg6 arg7 harg7 hc0 hc1 x0 x1 xs0 xs1 xs2 = k0_pay12 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S4x256x1) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3]

theorem sout0_B_2_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x1024x1024 .bf16) (xs0 : Vec F S4x256x1 .f32) (xs1 : Vec F S4x256x1 .f32) (xs2 : Vec F S4x256x1024 .f32) :
    sout0_B_2 c i arg2 harg2 arg3 harg3 arg4 harg4 arg5 harg5 arg6 harg6 arg7 harg7 hc0 hc1 x0 x1 xs0 xs1 xs2 = k0_pay1 (k0_pay7 x1) (k0_pay10 x0 x1 xs0 xs0) (k0_pay11 x0 x1 xs0) xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S4x256x1024) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3]

/-! ## Key tile 3: the same fold, then the quotient

The scratch buffers receive the same three stores. The loads that follow read the numerator and the denominator
just stored, and the one store into the output window's buffer is their quotient, transposed. -/

theorem sout0_C_0_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) :
    sout0_C_0 c i arg2 harg2 arg3 harg3 arg4 harg4 arg5 harg5 arg6 harg6 arg7 harg7 hc0 hc1 x0 x1 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x256x1) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

theorem sout0_C_1_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) :
    sout0_C_1 c i arg2 harg2 arg3 harg3 arg4 harg4 arg5 harg5 arg6 harg6 arg7 harg7 hc0 hc1 x0 x1 xs0 xs1 xs2 = k0_pay12 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x256x1) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

theorem sout0_C_2_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) :
    sout0_C_2 c i arg2 harg2 arg3 harg3 arg4 harg4 arg5 harg5 arg6 harg6 arg7 harg7 hc0 hc1 x0 x1 xs0 xs1 xs2 = k0_pay1 (k0_pay7 x1) (k0_pay10 x0 x1 xs0 xs0) (k0_pay11 x0 x1 xs0) xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S4x256x1024) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

theorem out0_C_2_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x1024x1024 .bf16) (xs0 : Vec F S4x256x1 .f32) (xs1 : Vec F S4x256x1 .f32) (xs2 : Vec F S4x256x1024 .f32) :
    out0_C_2 c i arg2 harg2 arg3 harg3 arg4 harg4 arg5 harg5 arg6 harg6 arg7 harg7 hc0 hc1 x0 x1 xs0 xs1 xs2 = k0_pay3 (k0_pay1 (k0_pay7 x1) (k0_pay10 x0 x1 xs0 xs0) (k0_pay11 x0 x1 xs0) xs2) (k0_pay12 x0 x1 xs0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S256x4x1024) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

/-! ## Key tile 0: the reset, then the fold

Each scratch buffer receives two stores: the reset value, then the fold's result, which covers it. The fold's loads
come after the reset stores, so they read the reset values, and the results are those of the other cases with the
reset values in place of what the buffers held. -/

theorem sout0_A_0_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) :
    sout0_A_0 c i arg2 harg2 arg3 harg3 arg4 harg4 arg5 harg5 arg6 harg6 arg7 harg7 hc0 hc1 x0 x1 = k0_pay2 (k0_pay9 x0 x1 (k0_pay4 (F := F))) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S4x256x1) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

theorem sout0_A_1_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) :
    sout0_A_1 c i arg2 harg2 arg3 harg3 arg4 harg4 arg5 harg5 arg6 harg6 arg7 harg7 hc0 hc1 x0 x1 = k0_pay12 x0 x1 (k0_pay4 (F := F)) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4x256x1) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

theorem sout0_A_2_eq (c : Dev nD) (i : grid0.Coords) (arg2 : Memref sig .tc .vmem S4x256x1024 .bf16) (harg2 : arg2.IsWhole) (arg3 : Memref sig .tc .vmem S4x1024x1024 .bf16) (harg3 : arg3.IsWhole) (arg4 : Memref sig .tc .vmem S256x4x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x1024x1024 .bf16) :
    sout0_A_2 c i arg2 harg2 arg3 harg3 arg4 harg4 arg5 harg5 arg6 harg6 arg7 harg7 hc0 hc1 x0 x1 = k0_pay1 (k0_pay7 x1) (k0_pay10 x0 x1 (k0_pay4 (F := F)) (k0_pay4 (F := F))) (k0_pay11 x0 x1 (k0_pay4 (F := F))) (k0_pay6 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S4x256x1024) offsets_zero3]
  simp only [View.readAt_eq_ld, harg2.read_unread, harg3.read_unread, harg5.read_unread, harg6.read_unread, harg7.read_unread,
    View.ld_unit_zero (S := S4x256x1024) offsets_zero3, View.ld_unit_zero (S := S4x1024x1024) offsets_zero3,
    View.ld_unit_zero (S := S4x256x1) offsets_zero3,
    View.readCov_unit_zero (S := S4x256x1) _ offsets_zero3, View.readCov_unit_zero (S := S4x256x1024) _ offsets_zero3]

end Cert.KernelIdeal.Hand

end
-- ==== Proof.LibSoftmaxShift.lean ====
/-
  Softmax under a shift, a finite sum cut into consecutive tiles, and when the extended reals met along the
  way are real numbers.

  For real scores s and any real μ, exp(s t − μ) = exp(−μ)·exp(s t), so a quotient of two sums weighted by
  exp(s t − μ) does not depend on μ, and rescaling a partial sum from the shift μ to the shift μ' is one
  multiplication by exp(μ − μ'). A sum over the indices below a + k is the sum below a plus the k terms from a on.
  A maximum folded from −∞ over real numbers is −∞ or a real number, never +∞.
-/
import Mathlib.Analysis.SpecialFunctions.Exp
import Mathlib.Data.EReal.Basic
import Mathlib.Data.EReal.Operations
import Mathlib.Algebra.BigOperators.Group.Finset.Basic
import Mathlib.Algebra.BigOperators.Ring.Finset
import Mathlib.Algebra.BigOperators.Field
import Mathlib.Algebra.Order.BigOperators.Ring.Finset
import Mathlib.Data.Finset.Fold
import Mathlib.Tactic.Ring
import Mathlib.Tactic.FieldSimp
import Mathlib.Tactic.Positivity
import Mathlib.Tactic.Linarith

noncomputable section

namespace Cert.SoftmaxShift

open scoped BigOperators

variable {ι : Type*}

/-- Rescaling a shifted, weighted partial sum from the shift `μ` to the shift `μ'`. -/
theorem rescale_sum (A : Finset ι) (s w : ι → ℝ) (μ μ' : ℝ) :
    Real.exp (μ - μ') * ∑ t ∈ A, Real.exp (s t - μ) * w t = ∑ t ∈ A, Real.exp (s t - μ') * w t := by
  rw [Finset.mul_sum]
  refine Finset.sum_congr rfl fun t _ => ?_
  -- exp(μ − μ')·exp(s t − μ) = exp(s t − μ'), since the exponents add up
  rw [← mul_assoc, ← Real.exp_add]
  congr 2
  ring

/-- The same for the unweighted sum. -/
theorem rescale_sum_one (A : Finset ι) (s : ι → ℝ) (μ μ' : ℝ) :
    Real.exp (μ - μ') * ∑ t ∈ A, Real.exp (s t - μ) = ∑ t ∈ A, Real.exp (s t - μ') := by
  have h := rescale_sum A s (fun _ => (1 : ℝ)) μ μ'
  simpa only [mul_one] using h

/-- A sum of exponentials over a nonempty set is positive. -/
theorem sum_exp_pos (A : Finset ι) (hA : A.Nonempty) (s : ι → ℝ) : 0 < ∑ t ∈ A, Real.exp (s t) := by
  exact Finset.sum_pos (fun t _ => Real.exp_pos _) hA

/-- The weighted mean under softmax weights does not depend on the shift. -/
theorem shifted_ratio (A : Finset ι) (hA : A.Nonempty) (s v : ι → ℝ) (μ : ℝ) :
    (∑ t ∈ A, Real.exp (s t - μ) * v t) / (∑ t ∈ A, Real.exp (s t - μ))
      = (∑ t ∈ A, Real.exp (s t) * v t) / (∑ t ∈ A, Real.exp (s t)) := by
  have _ := hA
  -- exp(s t − μ) = exp(s t)·exp(−μ); the common factor exp(−μ) leaves both sums and cancels
  have h1 : ∀ t, Real.exp (s t - μ) = Real.exp (s t) * Real.exp (-μ) := fun t => by
    rw [sub_eq_add_neg, Real.exp_add]
  have hnum : ∑ t ∈ A, Real.exp (s t - μ) * v t
      = (∑ t ∈ A, Real.exp (s t) * v t) * Real.exp (-μ) := by
    rw [Finset.sum_mul]
    refine Finset.sum_congr rfl fun t _ => ?_
    rw [h1 t]
    ring
  have hden : ∑ t ∈ A, Real.exp (s t - μ) = (∑ t ∈ A, Real.exp (s t)) * Real.exp (-μ) := by
    rw [Finset.sum_mul]
    exact Finset.sum_congr rfl fun t _ => h1 t
  rw [hnum, hden, mul_div_mul_right _ _ (Real.exp_pos (-μ)).ne']

/-- Normalising each weight first and summing afterwards gives the same mean. -/
theorem normalized_sum (A : Finset ι) (hA : A.Nonempty) (s v : ι → ℝ) (μ : ℝ) :
    ∑ t ∈ A, (Real.exp (s t - μ) / ∑ u ∈ A, Real.exp (s u - μ)) * v t
      = (∑ t ∈ A, Real.exp (s t) * v t) / (∑ t ∈ A, Real.exp (s t)) := by
  rw [← shifted_ratio A hA s v μ, Finset.sum_div]
  refine Finset.sum_congr rfl fun t _ => ?_
  rw [div_mul_eq_mul_div]

/-- The indices below `a + k` are those below `a` and the `k` indices from `a` on. -/
theorem sum_filter_lt_add {M : Type*} [AddCommMonoid M] {N : ℕ} (f : Fin N → M) (a k : ℕ) (h : a + k ≤ N) :
    ∑ t ∈ Finset.univ.filter (fun t : Fin N => t.val < a + k), f t
      = ∑ t ∈ Finset.univ.filter (fun t : Fin N => t.val < a), f t
        + ∑ i : Fin k, f ⟨a + i.val, lt_of_lt_of_le (Nat.add_lt_add_left i.isLt a) h⟩ := by
  induction k with
  | zero => simp
  | succ k ih =>
    have hk : a + k ≤ N := by omega
    have hlt : a + k < N := by omega
    -- the indices below a + (k+1) are those below a + k together with the index a + k itself
    have hset : Finset.univ.filter (fun t : Fin N => t.val < a + (k + 1))
        = insert (⟨a + k, hlt⟩ : Fin N) (Finset.univ.filter (fun t : Fin N => t.val < a + k)) := by
      ext t
      simp only [Finset.mem_filter, Finset.mem_univ, true_and, Finset.mem_insert, Fin.ext_iff]
      omega
    have hnot : (⟨a + k, hlt⟩ : Fin N) ∉ Finset.univ.filter (fun t : Fin N => t.val < a + k) := by
      simp
    rw [hset, Finset.sum_insert hnot, ih hk, Fin.sum_univ_castSucc]
    simp only [Fin.coe_castSucc, Fin.val_last]
    rw [add_comm, add_assoc]

/-- Nothing lies below zero. -/
theorem sum_filter_lt_zero {M : Type*} [AddCommMonoid M] {N : ℕ} (f : Fin N → M) :
    ∑ t ∈ Finset.univ.filter (fun t : Fin N => t.val < 0), f t = 0 := by
  simp

/-- Everything lies below the bound. -/
theorem sum_filter_lt_all {M : Type*} [AddCommMonoid M] {N : ℕ} (f : Fin N → M) :
    ∑ t ∈ Finset.univ.filter (fun t : Fin N => t.val < N), f t = ∑ t, f t := by
  congr 1
  ext t
  simp

/-- A maximum folded from −∞ over real numbers is below +∞. -/
theorem fold_max_bot_coe_lt_top {n : ℕ} (f : Fin n → ℝ) :
    (Finset.univ : Finset (Fin n)).fold max (⊥ : EReal) (fun k => ((f k : ℝ) : EReal)) < ⊤ := by
  rw [Finset.fold_max_lt]
  exact ⟨bot_lt_top, fun x _ => EReal.coe_lt_top _⟩

/-- Over a nonempty index set it is a real number. -/
theorem fold_max_bot_coe_isReal {n : ℕ} (hn : 0 < n) (f : Fin n → ℝ) :
    ∃ r : ℝ, (Finset.univ : Finset (Fin n)).fold max (⊥ : EReal) (fun k => ((f k : ℝ) : EReal)) = (r : EReal) := by
  have hlt := fold_max_bot_coe_lt_top f
  -- the first term is a real number below the maximum, so the maximum is not −∞
  have hle : ((f ⟨0, hn⟩ : ℝ) : EReal)
      ≤ (Finset.univ : Finset (Fin n)).fold max (⊥ : EReal) (fun k => ((f k : ℝ) : EReal)) := by
    rw [Finset.le_fold_max]
    exact Or.inr ⟨⟨0, hn⟩, Finset.mem_univ _, le_rfl⟩
  generalize (Finset.univ : Finset (Fin n)).fold max (⊥ : EReal) (fun k => ((f k : ℝ) : EReal)) = x
    at hlt hle
  induction x using EReal.rec with
  | bot => exact absurd hle (not_le.mpr (EReal.bot_lt_coe _))
  | coe r => exact ⟨r, rfl⟩
  | top => exact absurd hlt (lt_irrefl _)

/-- The maximum of a real number and such a fold is a real number (whether or not the index set is empty). -/
theorem max_coe_fold_isReal {n : ℕ} (μ : ℝ) (f : Fin n → ℝ) :
    ∃ r : ℝ, max (μ : EReal) ((Finset.univ : Finset (Fin n)).fold max (⊥ : EReal) (fun k => ((f k : ℝ) : EReal))) = (r : EReal) := by
  have hlt := fold_max_bot_coe_lt_top f
  generalize (Finset.univ : Finset (Fin n)).fold max (⊥ : EReal) (fun k => ((f k : ℝ) : EReal)) = x
    at hlt
  induction x using EReal.rec with
  | bot => exact ⟨μ, max_eq_left bot_le⟩
  | coe r => exact ⟨max μ r, (EReal.coe_strictMono.monotone.map_max).symm⟩
  | top => exact absurd hlt (lt_irrefl _)

/-- The maximum of −∞ and a real number is that number. -/
theorem max_bot_coe (r : ℝ) : max (⊥ : EReal) (r : EReal) = (r : EReal) := by
  exact max_eq_right bot_le

/-- A finite sum of real numbers read in the extended reals is the real sum. -/
theorem coe_sum (A : Finset ι) (f : ι → ℝ) : ∑ i ∈ A, ((f i : ℝ) : EReal) = ((∑ i ∈ A, f i : ℝ) : EReal) := by
  induction A using Finset.cons_induction with
  | empty => simp
  | cons a A ha ih => rw [Finset.sum_cons, Finset.sum_cons, ih, EReal.coe_add]

end Cert.SoftmaxShift

end
-- ==== Proof.KIPay.lean ====
/-
  One step of online softmax, read entry by entry.

  The kernel body's arithmetic is a chain of pure functions of the vectors it loads. At the ideal instance a float is an
  extended real and every operation is exact. For loaded vectors that are real arrays q (queries), k (keys, also the
  values), and the running maximum mo, denominator lo and numerator ao, each function is read here at an index as a
  real formula:
    sc b r t = (Σ_d q b r d · k b t d) · (1/32)            the scaled score
    mn b r   = max (mo b r) (max_t sc b r t)               the new running maximum, a real number
    a b r    = exp (mo b r − mn b r)                        the rescaling factor of the old partial sums
    p b r t  = exp (sc b r t − mn b r)                      the shifted weight
    ln b r   = a b r · lo b r + Σ_t p b r t                 the new denominator
    an b r d = a b r · ao b r d + Σ_t p b r t · k b t d     the new numerator
  and the last step divides the numerator by the denominator and exchanges the first two axes.
-/
import proofs.«424141_j81587198755253_3_alg».proof.Proof.Gen.KernelIdeal.Skeleton
import proofs.«424141_j81587198755253_3_alg».proof.Proof.LibSoftmaxShift
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The scaled score of query row `r` against key row `t` in batch `b`. -/
def sc (q : Fin 4 → Fin 256 → Fin 1024 → ℝ) (k : Fin 4 → Fin 1024 → Fin 1024 → ℝ) (b : Fin 4) (r : Fin 256)
    (t : Fin 1024) : ℝ :=
  (∑ d : Fin 1024, q b r d * k b t d) * (1 / 32)

/-- The key block passes through a cast to its own shape unchanged. -/
theorem pay7_eq (v5 : Vec Ideal S4x1024x1024 .bf16) : k0_pay7 (F := Ideal) v5 = v5 := by
  unfold k0_pay7
  exact shapeCast_self v5 _

private theorem lhs_qk_0 (i : S4x256x1024.Idx) (c : dot_S4x256x1024_S4x1024x1024_S4x256x1024_2_2_1_1_0_0.contr.Idx) :
    (dot_S4x256x1024_S4x1024x1024_S4x256x1024_2_2_1_1_0_0.lhsIdx i c 0).val = (i 0).val := by
  unfold DotDims.lhsIdx
  rw [dif_pos (show (0 : Fin S4x256x1024.rank) ∈ dot_S4x256x1024_S4x1024x1024_S4x256x1024_2_2_1_1_0_0.lhsBatch by decide)]
  rfl
private theorem lhs_qk_1 (i : S4x256x1024.Idx) (c : dot_S4x256x1024_S4x1024x1024_S4x256x1024_2_2_1_1_0_0.contr.Idx) :
    (dot_S4x256x1024_S4x1024x1024_S4x256x1024_2_2_1_1_0_0.lhsIdx i c 1).val = (i 1).val := by
  unfold DotDims.lhsIdx
  rw [dif_neg (show ¬(1 : Fin S4x256x1024.rank) ∈ dot_S4x256x1024_S4x1024x1024_S4x256x1024_2_2_1_1_0_0.lhsBatch by decide), dif_pos (show (1 : Fin S4x256x1024.rank) ∈ dot_S4x256x1024_S4x1024x1024_S4x256x1024_2_2_1_1_0_0.lhsNonContracting by decide)]
  rfl
private theorem lhs_qk_2 (i : S4x256x1024.Idx) (c : dot_S4x256x1024_S4x1024x1024_S4x256x1024_2_2_1_1_0_0.contr.Idx) :
    (dot_S4x256x1024_S4x1024x1024_S4x256x1024_2_2_1_1_0_0.lhsIdx i c 2).val = (c ⟨0, by decide⟩).val :=
  dot_S4x256x1024_S4x1024x1024_S4x256x1024_2_2_1_1_0_0.lhsIdx_val_of_single rfl i c
private theorem rhs_qk_0 (i : S4x256x1024.Idx) (c : dot_S4x256x1024_S4x1024x1024_S4x256x1024_2_2_1_1_0_0.contr.Idx) :
    (dot_S4x256x1024_S4x1024x1024_S4x256x1024_2_2_1_1_0_0.rhsIdx i c 0).val = (i 0).val := by
  unfold DotDims.rhsIdx
  rw [dif_pos (show (0 : Fin S4x1024x1024.rank) ∈ dot_S4x256x1024_S4x1024x1024_S4x256x1024_2_2_1_1_0_0.rhsBatch by decide)]
  rfl
private theorem rhs_qk_1 (i : S4x256x1024.Idx) (c : dot_S4x256x1024_S4x1024x1024_S4x256x1024_2_2_1_1_0_0.contr.Idx) :
    (dot_S4x256x1024_S4x1024x1024_S4x256x1024_2_2_1_1_0_0.rhsIdx i c 1).val = (i 2).val := by
  unfold DotDims.rhsIdx
  rw [dif_neg (show ¬(1 : Fin S4x1024x1024.rank) ∈ dot_S4x256x1024_S4x1024x1024_S4x256x1024_2_2_1_1_0_0.rhsBatch by decide), dif_pos (show (1 : Fin S4x1024x1024.rank) ∈ dot_S4x256x1024_S4x1024x1024_S4x256x1024_2_2_1_1_0_0.rhsNonContracting by decide)]
  rfl
private theorem rhs_qk_2 (i : S4x256x1024.Idx) (c : dot_S4x256x1024_S4x1024x1024_S4x256x1024_2_2_1_1_0_0.contr.Idx) :
    (dot_S4x256x1024_S4x1024x1024_S4x256x1024_2_2_1_1_0_0.rhsIdx i c 2).val = (c ⟨0, by decide⟩).val :=
  dot_S4x256x1024_S4x1024x1024_S4x256x1024_2_2_1_1_0_0.rhsIdx_val_of_single rfl i c

/-- A product contracting the last axis of both operands, batched over the first: entry (b, r, t) is Σ_c x b r c · y b t c. -/
private theorem matmul_qk_apply (x : FVec Ideal S4x256x1024 .bf16) (y : FVec Ideal S4x1024x1024 .bf16)
    (b : Fin 4) (r : Fin 256) (t : Fin 1024) :
    FloatOps.matmul dot_S4x256x1024_S4x1024x1024_S4x256x1024_2_2_1_1_0_0 none x y (constant (F := Ideal) S4x256x1024 .f32 0x00000000#32) (ix3 b r t)
      = ∑ c : Fin 1024, x (ix3 b r c) * y (ix3 b t c) := by
  rw [Ideal.matmul_constant_zero_apply, ← Equiv.sum_comp (contrEquiv1 dot_S4x256x1024_S4x1024x1024_S4x256x1024_2_2_1_1_0_0 1024 rfl rfl).symm]
  refine Finset.sum_congr rfl fun c _ => ?_
  have hc := contrEquiv1_symm_val dot_S4x256x1024_S4x1024x1024_S4x256x1024_2_2_1_1_0_0 1024 rfl rfl c
  have el : dot_S4x256x1024_S4x1024x1024_S4x256x1024_2_2_1_1_0_0.lhsIdx (ix3 b r t) ((contrEquiv1 dot_S4x256x1024_S4x1024x1024_S4x256x1024_2_2_1_1_0_0 1024 rfl rfl).symm c) = ix3 b r c :=
    funext fun a => Fin.ext (by
      match a with
      | ⟨0, _⟩ => exact lhs_qk_0 _ _
      | ⟨1, _⟩ => exact lhs_qk_1 _ _
      | ⟨2, _⟩ => exact (lhs_qk_2 _ _).trans hc)
  have er : dot_S4x256x1024_S4x1024x1024_S4x256x1024_2_2_1_1_0_0.rhsIdx (ix3 b r t) ((contrEquiv1 dot_S4x256x1024_S4x1024x1024_S4x256x1024_2_2_1_1_0_0 1024 rfl rfl).symm c) = ix3 b t c :=
    funext fun a => Fin.ext (by
      match a with
      | ⟨0, _⟩ => exact rhs_qk_0 _ _
      | ⟨1, _⟩ => exact rhs_qk_1 _ _
      | ⟨2, _⟩ => exact (rhs_qk_2 _ _).trans hc)
  rw [el, er]

/-- The pattern 0x3D000000 denotes 1/32. -/
private theorem ofBits_inv32 : Ideal.ofBits .f32 0x3D000000#32 = ((1 / 32 : ℝ) : EReal) := by
  simp [Ideal.ofBits, Ideal.ieee, -EReal.coe_mul]
  norm_num

/-- The scaled scores: the contraction of a query row with a key row, times 1/32. -/
theorem pay8_apply (v3 : Vec Ideal S4x256x1024 .bf16) (v5 : Vec Ideal S4x1024x1024 .bf16)
    (q : Fin 4 → Fin 256 → Fin 1024 → ℝ) (k : Fin 4 → Fin 1024 → Fin 1024 → ℝ)
    (hq : ∀ b r d, v3 (ix3 b r d) = ((q b r d : ℝ) : EReal))
    (hk : ∀ b t d, v5 (ix3 b t d) = ((k b t d : ℝ) : EReal))
    (b : Fin 4) (r : Fin 256) (t : Fin 1024) :
    k0_pay8 (F := Ideal) v3 v5 (ix3 b r t) = ((sc q k b r t : ℝ) : EReal) := by
  unfold k0_pay8
  simp only [mulf_apply, broadcast_apply, matmul, pay7_eq, shapeCast_self, Ideal.ofBits_def]
  rw [matmul_qk_apply, ofBits_inv32]
  -- Σ_c ↑(q b r c)·↑(k b t c) is the coercion of the real sum
  simp only [hq, hk, ← EReal.coe_mul, Cert.SoftmaxShift.coe_sum]
  rfl

/-! ### Layout steps between the row shape [4,256], the column shape [4,256,1] and the block shape [4,256,1024] -/

/-- Inserting the coordinate `t` on the last axis over the row index (b, r) gives (b, r, t). -/
private theorem lift_row (h : S4x256x1024.Reduces [2] S4x256) (b : Fin 4) (r : Fin 256) (t : Fin 1024) :
    h.lift (ix2 b r) t = ix3 b r t :=
  funext fun a => Fin.ext (by
    match a with
    | ⟨0, _⟩ => rfl
    | ⟨1, _⟩ => rfl
    | ⟨2, _⟩ => rfl)

/-- A row vector read as a column: entry (b, r, 0) of the column is entry (b, r) of the row. -/
private theorem cast_col_apply {α : Type} (x : S4x256.Idx → α) (h : S4x256.ShapeCasts S4x256x1) (b : Fin 4)
    (r : Fin 256) : shapeCast S4x256x1 x h (ix3 b r 0) = x (ix2 b r) :=
  shapeCast_apply x h (ix3 b r 0) (ix2 b r) (by
    rw [Shape.rowMajor_val_two, Shape.rowMajor_val_three]
    show b.val * 256 + r.val = (b.val * 256 + r.val) * 1 + 0
    omega)

/-- A column broadcast along the last axis: entry (b, r, t) of the block is entry (b, r, 0) of the column. -/
private theorem bcast_col_apply {α : Type} (x : S4x256x1.Idx → α) (h : S4x256x1.Broadcasts S4x256x1024) (b : Fin 4)
    (r : Fin 256) (t : Fin 1024) : broadcastTo S4x256x1024 x h (ix3 b r t) = x (ix3 b r 0) :=
  broadcastTo_apply x h (ix3 b r t) (ix3 b r 0) (fun a => by
    match a with
    | ⟨0, _⟩ => rfl
    | ⟨1, _⟩ => rfl
    | ⟨2, _⟩ => rfl)

/-- The exponential of a vector, entry by entry. -/
private theorem exp_apply {s : Shape} {φ : FTy} (x : FVec Ideal s φ) (i : s.Idx) :
    Idealize.ShloMosaic.exp x i = Ideal.exp (x i) := rfl

/-- The pattern 0xFF800000 denotes −∞. -/
private theorem ofBits_neg_inf : FloatOps.ofBits (F := Ideal) .f32 0xFF800000#32 = (⊥ : EReal) := by
  simp [Ideal.ofBits, Ideal.ieee]

/-- The maximum over the last axis, folded from −∞, at the row (b, r). -/
private theorem rowmax_apply (x : FVec Ideal S4x256x1024 .f32) (h : S4x256x1024.Reduces [2] S4x256)
    (hφ : FKind.Formats .f32) (hacc : (0xFF800000#32 : BitVec 32) = 0xFF800000#32) (b : Fin 4)
    (r : Fin 256) :
    multiReduction (F := Ideal) .maximumf [2] S4x256 x 0xFF800000#32 h hφ hacc (ix2 b r)
      = (Finset.univ : Finset (Fin 1024)).fold max (⊥ : EReal) (fun t => x (ix3 b r t)) := by
  refine (Ideal.multiReduction_maximumf_single x 0xFF800000#32 h hφ hacc (ix2 b r)).trans ?_
  rw [ofBits_neg_inf]
  exact Finset.fold_congr fun t _ => congrArg x (lift_row h b r t)

/-- The sum over the last axis at the row (b, r). -/
private theorem rowsum_apply (x : FVec Ideal S4x256x1024 .f32) (h : S4x256x1024.Reduces [2] S4x256)
    (hφ : FKind.Formats .f32) (hacc : (0x00000000#32 : BitVec 32) = 0x00000000#32) (b : Fin 4)
    (r : Fin 256) :
    multiReduction (F := Ideal) .add [2] S4x256 x 0x00000000#32 h hφ hacc (ix2 b r)
      = ∑ t : Fin 1024, x (ix3 b r t) := by
  refine (Ideal.multiReduction_add_single x 0x00000000#32 h hφ hacc (ix2 b r)).trans ?_
  exact Finset.sum_congr rfl fun t _ => congrArg x (lift_row h b r t)

/-- The maximum of a real number and the row maximum of an array of real numbers is a real number. -/
private theorem rowmax_isReal (X : FVec Ideal S4x256x1024 .f32) (s : Fin 4 → Fin 256 → Fin 1024 → ℝ)
    (hX : ∀ b r t, X (ix3 b r t) = ((s b r t : ℝ) : EReal)) (v10 : Vec Ideal S4x256x1 .f32)
    (mo : Fin 4 → Fin 256 → ℝ) (hmo : ∀ b r, v10 (ix3 b r 0) = ((mo b r : ℝ) : EReal))
    (h : S4x256x1024.Reduces [2] S4x256) (hφ : FKind.Formats .f32)
    (hacc : (0xFF800000#32 : BitVec 32) = 0xFF800000#32) (hc : S4x256.ShapeCasts S4x256x1) (b : Fin 4) (r : Fin 256) :
    ∃ m : ℝ, maximumf v10
        (shapeCast S4x256x1 (multiReduction (F := Ideal) .maximumf [2] S4x256 X 0xFF800000#32 h hφ hacc) hc) (ix3 b r 0)
      = ((m : ℝ) : EReal) := by
  have e : maximumf v10
        (shapeCast S4x256x1 (multiReduction (F := Ideal) .maximumf [2] S4x256 X 0xFF800000#32 h hφ hacc) hc) (ix3 b r 0)
      = max ((mo b r : ℝ) : EReal)
          ((Finset.univ : Finset (Fin 1024)).fold max (⊥ : EReal) (fun t => ((s b r t : ℝ) : EReal))) := by
    refine (maximumf_apply _ _ _).trans (congrArg₂ max (hmo b r) ?_)
    refine (cast_col_apply _ hc b r).trans ((rowmax_apply X h hφ hacc b r).trans ?_)
    exact Finset.fold_congr fun t _ => hX b r t
  rw [e]
  exact Cert.SoftmaxShift.max_coe_fold_isReal (mo b r) (fun t => s b r t)

/-- The new running maximum is a real number at every row. -/
theorem pay9_isReal (v3 : Vec Ideal S4x256x1024 .bf16) (v5 : Vec Ideal S4x1024x1024 .bf16) (v10 : Vec Ideal S4x256x1 .f32)
    (q : Fin 4 → Fin 256 → Fin 1024 → ℝ) (k : Fin 4 → Fin 1024 → Fin 1024 → ℝ) (mo : Fin 4 → Fin 256 → ℝ)
    (hq : ∀ b r d, v3 (ix3 b r d) = ((q b r d : ℝ) : EReal))
    (hk : ∀ b t d, v5 (ix3 b t d) = ((k b t d : ℝ) : EReal))
    (hmo : ∀ b r, v10 (ix3 b r 0) = ((mo b r : ℝ) : EReal)) :
    ∃ mn : Fin 4 → Fin 256 → ℝ, ∀ b r, k0_pay9 (F := Ideal) v3 v5 v10 (ix3 b r 0) = ((mn b r : ℝ) : EReal) := by
  -- the body is the maximum of the old running maximum and the row maximum of the scaled scores, which are real numbers
  have h : ∀ b r, ∃ m : ℝ, k0_pay9 (F := Ideal) v3 v5 v10 (ix3 b r 0) = ((m : ℝ) : EReal) := fun b r =>
    rowmax_isReal (k0_pay8 (F := Ideal) v3 v5) (sc q k) (pay8_apply v3 v5 q k hq hk) v10 mo hmo _ _ _ _ b r
  choose mn hmn using h
  exact ⟨mn, hmn⟩

/-- The rescaling factor of the old partial sums. -/
theorem pay10_apply (v3 : Vec Ideal S4x256x1024 .bf16) (v5 : Vec Ideal S4x1024x1024 .bf16) (v10 v14 : Vec Ideal S4x256x1 .f32)
    (mo mn : Fin 4 → Fin 256 → ℝ)
    (hmn : ∀ b r, k0_pay9 (F := Ideal) v3 v5 v10 (ix3 b r 0) = ((mn b r : ℝ) : EReal))
    (hmo' : ∀ b r, v14 (ix3 b r 0) = ((mo b r : ℝ) : EReal))
    (b : Fin 4) (r : Fin 256) :
    k0_pay10 (F := Ideal) v3 v5 v10 v14 (ix3 b r 0) = ((Real.exp (mo b r - mn b r) : ℝ) : EReal) := by
  unfold k0_pay10
  simp only [exp_apply, subf_apply]
  rw [hmo', hmn, ← EReal.coe_sub, Ideal.exp_coe]

/-- The shifted weights. -/
theorem pay11_apply (v3 : Vec Ideal S4x256x1024 .bf16) (v5 : Vec Ideal S4x1024x1024 .bf16) (v10 : Vec Ideal S4x256x1 .f32)
    (q : Fin 4 → Fin 256 → Fin 1024 → ℝ) (k : Fin 4 → Fin 1024 → Fin 1024 → ℝ) (mn : Fin 4 → Fin 256 → ℝ)
    (hq : ∀ b r d, v3 (ix3 b r d) = ((q b r d : ℝ) : EReal))
    (hk : ∀ b t d, v5 (ix3 b t d) = ((k b t d : ℝ) : EReal))
    (hmn : ∀ b r, k0_pay9 (F := Ideal) v3 v5 v10 (ix3 b r 0) = ((mn b r : ℝ) : EReal))
    (b : Fin 4) (r : Fin 256) (t : Fin 1024) :
    k0_pay11 (F := Ideal) v3 v5 v10 (ix3 b r t) = ((Real.exp (sc q k b r t - mn b r) : ℝ) : EReal) := by
  unfold k0_pay11
  simp only [exp_apply, subf_apply]
  rw [bcast_col_apply, pay8_apply v3 v5 q k hq hk, hmn, ← EReal.coe_sub, Ideal.exp_coe]

/-- The new denominator. -/
theorem pay12_apply (v3 : Vec Ideal S4x256x1024 .bf16) (v5 : Vec Ideal S4x1024x1024 .bf16) (v10 v14 v20 : Vec Ideal S4x256x1 .f32)
    (q : Fin 4 → Fin 256 → Fin 1024 → ℝ) (k : Fin 4 → Fin 1024 → Fin 1024 → ℝ) (mo lo mn : Fin 4 → Fin 256 → ℝ)
    (hq : ∀ b r d, v3 (ix3 b r d) = ((q b r d : ℝ) : EReal))
    (hk : ∀ b t d, v5 (ix3 b t d) = ((k b t d : ℝ) : EReal))
    (hmn : ∀ b r, k0_pay9 (F := Ideal) v3 v5 v10 (ix3 b r 0) = ((mn b r : ℝ) : EReal))
    (hmo' : ∀ b r, v14 (ix3 b r 0) = ((mo b r : ℝ) : EReal))
    (hlo : ∀ b r, v20 (ix3 b r 0) = ((lo b r : ℝ) : EReal))
    (b : Fin 4) (r : Fin 256) :
    k0_pay12 (F := Ideal) v3 v5 v10 v14 v20 (ix3 b r 0)
      = ((Real.exp (mo b r - mn b r) * lo b r + ∑ t : Fin 1024, Real.exp (sc q k b r t - mn b r) : ℝ) : EReal) := by
  unfold k0_pay12
  simp only [shapeCast_self, addf_apply, mulf_apply]
  rw [cast_col_apply, rowsum_apply, pay10_apply v3 v5 v10 v14 mo mn hmn hmo', hlo]
  simp only [pay11_apply v3 v5 v10 q k mn hq hk hmn]
  rw [Cert.SoftmaxShift.coe_sum, ← EReal.coe_mul, ← EReal.coe_add]

private theorem lhs_pv_0 (i : S4x256x1024.Idx) (c : dot_S4x256x1024_S4x1024x1024_S4x256x1024_2_1_1_2_0_0.contr.Idx) :
    (dot_S4x256x1024_S4x1024x1024_S4x256x1024_2_1_1_2_0_0.lhsIdx i c 0).val = (i 0).val := by
  unfold DotDims.lhsIdx
  rw [dif_pos (show (0 : Fin S4x256x1024.rank) ∈ dot_S4x256x1024_S4x1024x1024_S4x256x1024_2_1_1_2_0_0.lhsBatch by decide)]
  rfl
private theorem lhs_pv_1 (i : S4x256x1024.Idx) (c : dot_S4x256x1024_S4x1024x1024_S4x256x1024_2_1_1_2_0_0.contr.Idx) :
    (dot_S4x256x1024_S4x1024x1024_S4x256x1024_2_1_1_2_0_0.lhsIdx i c 1).val = (i 1).val := by
  unfold DotDims.lhsIdx
  rw [dif_neg (show ¬(1 : Fin S4x256x1024.rank) ∈ dot_S4x256x1024_S4x1024x1024_S4x256x1024_2_1_1_2_0_0.lhsBatch by decide), dif_pos (show (1 : Fin S4x256x1024.rank) ∈ dot_S4x256x1024_S4x1024x1024_S4x256x1024_2_1_1_2_0_0.lhsNonContracting by decide)]
  rfl
private theorem lhs_pv_2 (i : S4x256x1024.Idx) (c : dot_S4x256x1024_S4x1024x1024_S4x256x1024_2_1_1_2_0_0.contr.Idx) :
    (dot_S4x256x1024_S4x1024x1024_S4x256x1024_2_1_1_2_0_0.lhsIdx i c 2).val = (c ⟨0, by decide⟩).val :=
  dot_S4x256x1024_S4x1024x1024_S4x256x1024_2_1_1_2_0_0.lhsIdx_val_of_single rfl i c
private theorem rhs_pv_0 (i : S4x256x1024.Idx) (c : dot_S4x256x1024_S4x1024x1024_S4x256x1024_2_1_1_2_0_0.contr.Idx) :
    (dot_S4x256x1024_S4x1024x1024_S4x256x1024_2_1_1_2_0_0.rhsIdx i c 0).val = (i 0).val := by
  unfold DotDims.rhsIdx
  rw [dif_pos (show (0 : Fin S4x1024x1024.rank) ∈ dot_S4x256x1024_S4x1024x1024_S4x256x1024_2_1_1_2_0_0.rhsBatch by decide)]
  rfl
private theorem rhs_pv_1 (i : S4x256x1024.Idx) (c : dot_S4x256x1024_S4x1024x1024_S4x256x1024_2_1_1_2_0_0.contr.Idx) :
    (dot_S4x256x1024_S4x1024x1024_S4x256x1024_2_1_1_2_0_0.rhsIdx i c 1).val = (c ⟨0, by decide⟩).val :=
  dot_S4x256x1024_S4x1024x1024_S4x256x1024_2_1_1_2_0_0.rhsIdx_val_of_single rfl i c
private theorem rhs_pv_2 (i : S4x256x1024.Idx) (c : dot_S4x256x1024_S4x1024x1024_S4x256x1024_2_1_1_2_0_0.contr.Idx) :
    (dot_S4x256x1024_S4x1024x1024_S4x256x1024_2_1_1_2_0_0.rhsIdx i c 2).val = (i 2).val := by
  unfold DotDims.rhsIdx
  rw [dif_neg (show ¬(2 : Fin S4x1024x1024.rank) ∈ dot_S4x256x1024_S4x1024x1024_S4x256x1024_2_1_1_2_0_0.rhsBatch by decide), dif_pos (show (2 : Fin S4x1024x1024.rank) ∈ dot_S4x256x1024_S4x1024x1024_S4x256x1024_2_1_1_2_0_0.rhsNonContracting by decide)]
  rfl

/-- A product contracting the last axis of the left operand with the middle axis of the right, batched over the first: entry (b, r, t) is Σ_c x b r c · y b c t. -/
private theorem matmul_pv_apply (x : FVec Ideal S4x256x1024 .bf16) (y : FVec Ideal S4x1024x1024 .bf16)
    (b : Fin 4) (r : Fin 256) (t : Fin 1024) :
    FloatOps.matmul dot_S4x256x1024_S4x1024x1024_S4x256x1024_2_1_1_2_0_0 none x y (constant (F := Ideal) S4x256x1024 .f32 0x00000000#32) (ix3 b r t)
      = ∑ c : Fin 1024, x (ix3 b r c) * y (ix3 b c t) := by
  rw [Ideal.matmul_constant_zero_apply, ← Equiv.sum_comp (contrEquiv1 dot_S4x256x1024_S4x1024x1024_S4x256x1024_2_1_1_2_0_0 1024 rfl rfl).symm]
  refine Finset.sum_congr rfl fun c _ => ?_
  have hc := contrEquiv1_symm_val dot_S4x256x1024_S4x1024x1024_S4x256x1024_2_1_1_2_0_0 1024 rfl rfl c
  have el : dot_S4x256x1024_S4x1024x1024_S4x256x1024_2_1_1_2_0_0.lhsIdx (ix3 b r t) ((contrEquiv1 dot_S4x256x1024_S4x1024x1024_S4x256x1024_2_1_1_2_0_0 1024 rfl rfl).symm c) = ix3 b r c :=
    funext fun a => Fin.ext (by
      match a with
      | ⟨0, _⟩ => exact lhs_pv_0 _ _
      | ⟨1, _⟩ => exact lhs_pv_1 _ _
      | ⟨2, _⟩ => exact (lhs_pv_2 _ _).trans hc)
  have er : dot_S4x256x1024_S4x1024x1024_S4x256x1024_2_1_1_2_0_0.rhsIdx (ix3 b r t) ((contrEquiv1 dot_S4x256x1024_S4x1024x1024_S4x256x1024_2_1_1_2_0_0 1024 rfl rfl).symm c) = ix3 b c t :=
    funext fun a => Fin.ext (by
      match a with
      | ⟨0, _⟩ => exact rhs_pv_0 _ _
      | ⟨1, _⟩ => exact (rhs_pv_1 _ _).trans hc
      | ⟨2, _⟩ => exact rhs_pv_2 _ _)
  rw [el, er]

/-- The new numerator. -/
theorem pay1_apply (v6 : FVec Ideal S4x1024x1024 .bf16) (v16 : FVec Ideal S4x256x1 .f32)
    (v19 : FVec Ideal S4x256x1024 .f32) (v28 : Vec Ideal S4x256x1024 .f32)
    (k : Fin 4 → Fin 1024 → Fin 1024 → ℝ) (a : Fin 4 → Fin 256 → ℝ) (p ao : Fin 4 → Fin 256 → Fin 1024 → ℝ)
    (hv6 : ∀ b t d, v6 (ix3 b t d) = ((k b t d : ℝ) : EReal))
    (hv16 : ∀ b r, v16 (ix3 b r 0) = ((a b r : ℝ) : EReal))
    (hv19 : ∀ b r t, v19 (ix3 b r t) = ((p b r t : ℝ) : EReal))
    (hv28 : ∀ b r d, v28 (ix3 b r d) = ((ao b r d : ℝ) : EReal))
    (b : Fin 4) (r : Fin 256) (d : Fin 1024) :
    k0_pay1 (F := Ideal) v6 v16 v19 v28 (ix3 b r d)
      = ((a b r * ao b r d + ∑ t : Fin 1024, p b r t * k b t d : ℝ) : EReal) := by
  unfold k0_pay1
  simp only [shapeCast_self, addf_apply, mulf_apply, matmul]
  rw [bcast_col_apply, matmul_pv_apply, hv16, hv28]
  simp only [truncf_apply, hv19, hv6, ← EReal.coe_mul, Cert.SoftmaxShift.coe_sum]
  rw [← EReal.coe_add]

/-- The running maximum passes through a cast to its own shape unchanged. -/
theorem pay2_eq (v13 : FVec Ideal S4x256x1 .f32) : k0_pay2 (F := Ideal) v13 = v13 := by
  unfold k0_pay2
  exact shapeCast_self v13 _

/-- The final quotient, with the first two axes exchanged. -/
theorem pay3_apply (v43 : Vec Ideal S4x256x1024 .f32) (v44 : Vec Ideal S4x256x1 .f32)
    (an : Fin 4 → Fin 256 → Fin 1024 → ℝ) (ln : Fin 4 → Fin 256 → ℝ)
    (h43 : ∀ b r d, v43 (ix3 b r d) = ((an b r d : ℝ) : EReal))
    (h44 : ∀ b r, v44 (ix3 b r 0) = ((ln b r : ℝ) : EReal))
    (hpos : ∀ b r, ln b r ≠ 0)
    (r : Fin 256) (b : Fin 4) (d : Fin 1024) :
    k0_pay3 (F := Ideal) v43 v44 (ix3 r b d) = ((an b r d / ln b r : ℝ) : EReal) := by
  unfold k0_pay3
  -- the exchange of the first two axes reads the quotient at (b, r, d)
  rw [transpose_apply [1, 0, 2] _ _ (ix3 r b d) (ix3 b r d) (fun c => by
    match c with
    | ⟨0, _⟩ => rfl
    | ⟨1, _⟩ => rfl
    | ⟨2, _⟩ => rfl)]
  simp only [divf_apply]
  rw [bcast_col_apply, h43, h44, Ideal.div_coe (hpos b r), ← EReal.coe_mul, mul_one_div]

/-- The initial running maximum is one real number everywhere. -/
theorem pay4_isReal : ∃ neg : ℝ, ∀ j, k0_pay4 (F := Ideal) j = ((neg : ℝ) : EReal) := by
  -- the pattern 0xFF333332 has a biased exponent other than all ones, so it denotes a real number
  have h : ∃ neg : ℝ, Ideal.ofBits .f32 0xFF333332#32 = ((neg : ℝ) : EReal) := by
    simp [Ideal.ofBits, Ideal.ieee, -EReal.coe_mul]
    exact ⟨_, rfl⟩
  obtain ⟨neg, hneg⟩ := h
  refine ⟨neg, fun j => ?_⟩
  unfold k0_pay4
  simp only [shapeCast_self, broadcast_apply, Ideal.ofBits_def]
  exact hneg

/-- The initial denominator is zero. -/
theorem pay5_apply (j : S4x256x1.Idx) : k0_pay5 (F := Ideal) j = ((0 : ℝ) : EReal) := by
  unfold k0_pay5
  simp only [shapeCast_self, broadcast_apply, Ideal.ofBits_def, Ideal.ofBits_zero_f32]
  rfl

/-- The initial numerator is zero. -/
theorem pay6_apply (j : S4x256x1024.Idx) : k0_pay6 (F := Ideal) j = ((0 : ℝ) : EReal) := by
  unfold k0_pay6
  simp only [shapeCast_self, broadcast_apply, Ideal.ofBits_def, Ideal.ofBits_zero_f32]
  rfl

end Cert.KernelIdeal.Pay

end
-- ==== Proof.KIStep.lean ====
/-
  One step of the online softmax, at the level of the body's arithmetic.

  For a grid point t (query tile t / 4, key tile t % 4), query row r of the tile is position 256·(t/4) + r and
  key row k of the tile is position 1024·(t%4) + k. Suppose the scratch buffers hold, for some real shift μ per
  (batch, row): the shift itself, the sum over the positions u below 1024·(t%4) of exp(score(u) − μ), and the
  sum over the same positions of exp(score(u) − μ)·x[u, b, d]. Then after the body's update they hold the same
  three things for a new real shift μ' and the positions below 1024·(t%4) + 1024: the old sums are rescaled by
  exp(μ − μ') and the key tile's 1024 terms are added. Which number μ' is does not matter, only that it is real.
-/
import proofs.«424141_j81587198755253_3_alg».proof.Proof.KIPay
import proofs.«424141_j81587198755253_3_alg».proof.Proof.Spec
import proofs.«424141_j81587198755253_3_alg».proof.Proof.LibSoftmaxShift
import proofs.«424141_j81587198755253_3_alg».proof.Proof.Gen.KernelIdeal.Launch

noncomputable section

namespace Cert.KernelIdeal.Hand

open Idealize.ShloMosaic Idealize.ShloMosaic.ValueIdx
open Cert.KernelIdeal Cert.KernelIdeal.Gen Cert.KernelIdeal.Pay Cert.Attn Cert.SoftmaxShift
open scoped BigOperators

/-- The position of row `r` of the query tile of point `t`. -/
def qrow (t : Fin cfg0.N) (r : Fin 256) : Fin 4096 :=
  ⟨256 * (t.val / 4) + r.val, by have := t.isLt; have h : cfg0.N = 64 := N_0; have := r.isLt; omega⟩

/-- The position of row `k` of the key tile of point `t`. -/
def krow (t : Fin cfg0.N) (k : Fin 1024) : Fin 4096 :=
  ⟨1024 * (t.val % 4) + k.val, by have := k.isLt; omega⟩

theorem step_fold (x : Fin 4096 → Fin 4 → Fin 1024 → ℝ) (t : Fin cfg0.N)
    (x0 : Vec Ideal S4x256x1024 .bf16) (x1 : Vec Ideal S4x1024x1024 .bf16)
    (xs0 xs1 : Vec Ideal S4x256x1 .f32) (xs2 : Vec Ideal S4x256x1024 .f32)
    (hx0 : ∀ b r d, x0 (ix3 b r d) = ((x (qrow t r) b d : ℝ) : EReal))
    (hx1 : ∀ b k d, x1 (ix3 b k d) = ((x (krow t k) b d : ℝ) : EReal))
    (μ : Fin 4 → Fin 256 → ℝ)
    (h0 : ∀ b r, xs0 (ix3 b r 0) = ((μ b r : ℝ) : EReal))
    (h1 : ∀ b r, xs1 (ix3 b r 0)
      = ((∑ u ∈ Finset.univ.filter (fun u : Fin 4096 => u.val < 1024 * (t.val % 4)), Real.exp (score x b (qrow t r) u - μ b r) : ℝ) : EReal))
    (h2 : ∀ b r d, xs2 (ix3 b r d)
      = ((∑ u ∈ Finset.univ.filter (fun u : Fin 4096 => u.val < 1024 * (t.val % 4)), Real.exp (score x b (qrow t r) u - μ b r) * x u b d : ℝ) : EReal)) :
    ∃ μ' : Fin 4 → Fin 256 → ℝ,
      (∀ b r, k0_pay2 (F := Ideal) (k0_pay9 x0 x1 xs0) (ix3 b r 0) = ((μ' b r : ℝ) : EReal)) ∧
      (∀ b r, k0_pay12 (F := Ideal) x0 x1 xs0 xs0 xs1 (ix3 b r 0)
        = ((∑ u ∈ Finset.univ.filter (fun u : Fin 4096 => u.val < 1024 * (t.val % 4) + 1024), Real.exp (score x b (qrow t r) u - μ' b r) : ℝ) : EReal)) ∧
      (∀ b r d, k0_pay1 (F := Ideal) (k0_pay7 x1) (k0_pay10 x0 x1 xs0 xs0) (k0_pay11 x0 x1 xs0) xs2 (ix3 b r d)
        = ((∑ u ∈ Finset.univ.filter (fun u : Fin 4096 => u.val < 1024 * (t.val % 4) + 1024), Real.exp (score x b (qrow t r) u - μ' b r) * x u b d : ℝ) : EReal)) := by
  have hle : 1024 * (t.val % 4) + 1024 ≤ 4096 := by omega
  obtain ⟨mn, hmn⟩ := pay9_isReal x0 x1 xs0 (fun b r d => x (qrow t r) b d) (fun b k d => x (krow t k) b d) μ hx0 hx1 h0
  refine ⟨mn, ?_, ?_, ?_⟩
  · intro b r; rw [pay2_eq]; exact hmn b r
  · intro b r
    rw [pay12_apply x0 x1 xs0 xs0 xs1 (fun b r d => x (qrow t r) b d) (fun b k d => x (krow t k) b d) μ
      (fun b r => ∑ u ∈ Finset.univ.filter (fun u : Fin 4096 => u.val < 1024 * (t.val % 4)), Real.exp (score x b (qrow t r) u - μ b r)) mn hx0 hx1 hmn h0 h1 b r]
    refine congrArg _ ?_
    rw [rescale_sum_one, sum_filter_lt_add (fun u => Real.exp (score x b (qrow t r) u - mn b r)) (1024 * (t.val % 4)) 1024 hle]
    rfl
  · intro b r d
    rw [pay1_apply (k0_pay7 x1) (k0_pay10 x0 x1 xs0 xs0) (k0_pay11 x0 x1 xs0) xs2 (fun b k d => x (krow t k) b d)
      (fun b r => Real.exp (μ b r - mn b r))
      (fun b r k => Real.exp (sc (fun b r d => x (qrow t r) b d) (fun b k d => x (krow t k) b d) b r k - mn b r))
      (fun b r d => ∑ u ∈ Finset.univ.filter (fun u : Fin 4096 => u.val < 1024 * (t.val % 4)), Real.exp (score x b (qrow t r) u - μ b r) * x u b d)
      (by intro b k d; rw [pay7_eq]; exact hx1 b k d)
      (fun b r => pay10_apply x0 x1 xs0 xs0 μ mn hmn h0 b r)
      (fun b r k => pay11_apply x0 x1 xs0 (fun b r d => x (qrow t r) b d) (fun b k d => x (krow t k) b d) mn hx0 hx1 hmn b r k)
      h2 b r d]
    refine congrArg _ ?_
    rw [rescale_sum, sum_filter_lt_add (fun u => Real.exp (score x b (qrow t r) u - mn b r) * x u b d) (1024 * (t.val % 4)) 1024 hle]
    rfl

/-- After the last key tile the quotient of the two sums is the specification's value, whatever the shift. -/
theorem ratio_final (x : Fin 4096 → Fin 4 → Fin 1024 → ℝ) (s : Fin 4096) (b : Fin 4) (d : Fin 1024) (μ : ℝ) :
    (∑ u ∈ Finset.univ.filter (fun u : Fin 4096 => u.val < 4096), Real.exp (score x b s u - μ) * x u b d)
        / (∑ u ∈ Finset.univ.filter (fun u : Fin 4096 => u.val < 4096), Real.exp (score x b s u - μ))
      = attn x s b d := by
  rw [sum_filter_lt_all, sum_filter_lt_all]
  exact shifted_ratio Finset.univ Finset.univ_nonempty (fun u => score x b s u) (fun u => x u b d) μ

/-- The denominator after the last key tile is not zero. -/
theorem denom_ne_zero (x : Fin 4096 → Fin 4 → Fin 1024 → ℝ) (s : Fin 4096) (b : Fin 4) (μ : ℝ) :
    (∑ u ∈ Finset.univ.filter (fun u : Fin 4096 => u.val < 4096), Real.exp (score x b s u - μ)) ≠ 0 := by
  rw [sum_filter_lt_all]
  exact (sum_exp_pos Finset.univ Finset.univ_nonempty (fun u => score x b s u - μ)).ne'

end Cert.KernelIdeal.Hand

end
-- ==== Proof.KIInv.lean ====
/-
  The online softmax is the softmax: what the scratch buffers hold after every grid point, and what the kernel
  stores at the last key tile of each query tile.

  Let x be the input read as real numbers. After the body at point t (query tile t / 4, key tile t % 4) there is,
  for every batch b and row r of the query tile, a real shift μ such that the three scratch buffers hold μ, the
  sum over the positions u below 1024·(t % 4) + 1024 of exp(score(u) − μ), and the sum over the same positions of
  exp(score(u) − μ)·x[u, b, d]: at key tile 0 from the reset values, afterwards from what the point before left
  (the same query tile, one key tile less). At key tile 3 all 4096 positions are in, and the stored quotient is
  the specification's softmax-weighted mean.
-/
import proofs.«424141_j81587198755253_3_alg».proof.Proof.KIPieces
import proofs.«424141_j81587198755253_3_alg».proof.Proof.KIStep
import proofs.«424141_j81587198755253_3_alg».proof.Proof.KIBlocks

set_option maxRecDepth 16384

noncomputable section

namespace Cert.KernelIdeal.Hand

open Idealize.ShloMosaic Idealize.ShloMosaic.TcCoe
open Idealize.SL Idealize.SL.Sem
open Idealize.ShloMosaic.ValueIdx
open Cert.KernelIdeal Cert.KernelIdeal.Gen Cert.KernelIdeal.Pay Cert.Attn Cert.SoftmaxShift
open scoped BigOperators

variable (m : (ℓ : Loc nD τ sig) → Buf (Elt Ideal) ℓ) (c : Dev nD)

/-- The input array read as real numbers. -/
abbrev xr : Fin 4096 → Fin 4 → Fin 1024 → ℝ := realOf (argX m c)

section
variable (hX : ∀ i, ∃ r : ℝ, argX m c i = (r : EReal))
include hX

/-- The query block at a point holds the input's rows of that query tile. -/
theorem hx0 (t : Fin cfg0.N) (b : Fin 4) (r : Fin 256) (d : Fin 1024) :
    iblk (F := Ideal) m c 0 t (ix3 b r d) = ((xr m c (qrow t r) b d : ℝ) : EReal) := by
  rw [iblk0_apply]; exact eq_coe_realOf _ hX (qrow t r) b d

/-- The key block at a point holds the input's rows of that key tile. -/
theorem hx1 (t : Fin cfg0.N) (b : Fin 4) (k : Fin 1024) (d : Fin 1024) :
    iblk (F := Ideal) m c 1 t (ix3 b k d) = ((xr m c (krow t k) b d : ℝ) : EReal) := by
  rw [iblk1_apply]; exact eq_coe_realOf _ hX (krow t k) b d

/-- What the scratch buffers hold after point `n`. -/
def Inv (n : ℕ) (hn : n < cfg0.N) : Prop :=
  ∃ μ : Fin 4 → Fin 256 → ℝ,
    (∀ b r, (outsAt0 (F := Ideal) m c n hn).2.1 (ix3 b r 0) = ((μ b r : ℝ) : EReal)) ∧
    (∀ b r, (outsAt0 (F := Ideal) m c n hn).2.2.1 (ix3 b r 0)
      = ((∑ u ∈ Finset.univ.filter (fun u : Fin 4096 => u.val < 1024 * (n % 4) + 1024), Real.exp (score (xr m c) b (qrow ⟨n, hn⟩ r) u - μ b r) : ℝ) : EReal)) ∧
    (∀ b r d, (outsAt0 (F := Ideal) m c n hn).2.2.2 (ix3 b r d)
      = ((∑ u ∈ Finset.univ.filter (fun u : Fin 4096 => u.val < 1024 * (n % 4) + 1024), Real.exp (score (xr m c) b (qrow ⟨n, hn⟩ r) u - μ b r) * xr m c u b d : ℝ) : EReal))

/-- At key tile 0: from the reset values (a finite shift, two zeros). -/
theorem inv_A (t : Fin cfg0.N) (h0 : t.val % 4 = 0) : Inv m c t.val t.isLt := by
  have h1 : ¬t.val % 4 = 3 := by omega
  have hz : 1024 * (t.val % 4) = 0 := by omega
  unfold Inv
  rw [outsAt0_A m c t h0 h1]
  dsimp only
  rw [sout0_A_0_eq, sout0_A_1_eq, sout0_A_2_eq]
  obtain ⟨neg, hneg⟩ := pay4_isReal
  exact step_fold (xr m c) t (iblk m c 0 t) (iblk m c 1 t) (k0_pay4 (F := Ideal)) (k0_pay5 (F := Ideal)) (k0_pay6 (F := Ideal)) (hx0 m c hX t) (hx1 m c hX t) (fun _ _ => neg)
    (fun b r => hneg _)
    (fun b r => by rw [pay5_apply, hz, sum_filter_lt_zero])
    (fun b r d => by rw [pay6_apply, hz, sum_filter_lt_zero])

/-- At key tiles 1 to 3: from what the point before left, which is the same query tile one key tile earlier. -/
theorem inv_BC (t : Fin cfg0.N) (h0 : ¬t.val % 4 = 0)
    (ih : Inv m c (t.val - 1) (Nat.lt_of_le_of_lt (Nat.sub_le _ _) t.isLt)) : Inv m c t.val t.isLt := by
  have e1 : 1024 * ((t.val - 1) % 4) + 1024 = 1024 * (t.val % 4) := by omega
  have e2 : ∀ r, qrow ⟨t.val - 1, Nat.lt_of_le_of_lt (Nat.sub_le _ _) t.isLt⟩ r = qrow t r := fun r =>
    Fin.ext (by show 256 * ((t.val - 1) / 4) + r.val = 256 * (t.val / 4) + r.val; omega)
  obtain ⟨μ, i0, i1, i2⟩ := ih
  simp only [e1, e2] at i1 i2
  unfold Inv
  by_cases h1 : t.val % 4 = 3
  · rw [outsAt0_C m c t h0 h1]
    dsimp only
    rw [sout0_C_0_eq, sout0_C_1_eq, sout0_C_2_eq]
    exact step_fold (xr m c) t (iblk m c 0 t) (iblk m c 1 t) _ _ _ (hx0 m c hX t) (hx1 m c hX t) μ i0 i1 i2
  · rw [outsAt0_B m c t h0 h1]
    dsimp only
    rw [sout0_B_0_eq, sout0_B_1_eq, sout0_B_2_eq]
    exact step_fold (xr m c) t (iblk m c 0 t) (iblk m c 1 t) _ _ _ (hx0 m c hX t) (hx1 m c hX t) μ i0 i1 i2

theorem inv_all (n : ℕ) : ∀ hn : n < cfg0.N, Inv m c n hn := by
  induction n with
  | zero => intro hn; exact inv_A m c hX ⟨0, hn⟩ rfl
  | succ k ih =>
    intro hn
    by_cases h0 : (k + 1) % 4 = 0
    · exact inv_A m c hX ⟨k + 1, hn⟩ h0
    · exact inv_BC m c hX ⟨k + 1, hn⟩ h0 (ih (Nat.lt_of_succ_lt hn))

/-- At the last key tile of a query tile the kernel stores the specification's value for that tile's rows. -/
theorem out_block (t : Fin cfg0.N) (ht : t.val % 4 = 3) (r : Fin 256) (b : Fin 4) (d : Fin 1024) :
    (outsAt0 (F := Ideal) m c t.val t.isLt).1 (ix3 r b d)
      = G (argX m c) (ix3 (qrow t r) b d) := by
  have h0 : ¬t.val % 4 = 0 := by omega
  have e : 1024 * (t.val % 4) + 1024 = 4096 := by omega
  have hinv := inv_all m c hX t.val t.isLt
  unfold Inv at hinv
  rw [outsAt0_C m c t h0 ht] at hinv ⊢
  dsimp only at hinv ⊢
  rw [sout0_C_0_eq, sout0_C_1_eq, sout0_C_2_eq] at hinv
  rw [out0_C_2_eq]
  obtain ⟨μ, -, i1, i2⟩ := hinv
  simp only [e] at i1 i2
  rw [pay3_apply _ _
    (fun b r d => ∑ u ∈ Finset.univ.filter (fun u : Fin 4096 => u.val < 4096), Real.exp (score (xr m c) b (qrow t r) u - μ b r) * xr m c u b d)
    (fun b r => ∑ u ∈ Finset.univ.filter (fun u : Fin 4096 => u.val < 4096), Real.exp (score (xr m c) b (qrow t r) u - μ b r))
    i2 i1 (fun b r => denom_ne_zero (xr m c) (qrow t r) b (μ b r)) r b d]
  rw [G_ix3]
  exact congrArg _ (ratio_final (xr m c) (qrow t r) b d (μ b r))

end

end Cert.KernelIdeal.Hand

end
-- ==== Proof.KIValue.lean ====
/-
  The value of the kernel's run: where every entry of the argument array is a real number, the result array
  ends at the specification's function of the argument array, and the argument array ends unchanged.

  The run leaves the output window's array at the contents the proof data computes from what the body left
  at each grid point. Only the points of key tile 3 write a block back, the block of query tile t / 4, and
  there the body left the rows 256 · (t / 4) … 256 · (t / 4) + 255 of the specification's array; the sixteen
  blocks tile the array, so the array is the specification's.
-/
import proofs.«424141_j81587198755253_3_alg».proof.Proof.KIFrame
import proofs.«424141_j81587198755253_3_alg».proof.Proof.KIBlocks
import proofs.«424141_j81587198755253_3_alg».proof.Proof.KIFinal
import proofs.«424141_j81587198755253_3_alg».proof.Proof.KIInv
import proofs.«424141_j81587198755253_3_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Where every entry of the argument array is a real number, every weakly fair execution of the program
    terminates with the result array at the specification's function of the argument array and the argument
    array unchanged. -/
theorem kernel_run (m : (ℓ : Loc nD τ sig) → Buf (Elt Ideal) ℓ) (ρ : Dev nD → PrngReg)
    (hX : ∀ c i, ∃ r : ℝ, argX m c i = (r : EReal)) :
    θ_run (defs (F := Ideal)) (onTc (τ := τ) (main (F := Ideal))) ⟨m, fun _ => 0, ρ⟩ (fun r => ∀ c : Dev nD,
      r.2.mem ((c.tc : Thread nD τ).loc main_v2) = Cert.Attn.G (argX m c)
      ∧ r.2.mem ((c.tc : Thread nD τ).loc main_arg0) = m ((c.tc : Thread nD τ).loc main_arg0)) :=
  (θ_run defs _ _).mono (fun _ h c =>
    ⟨((h c).1 2).trans (final_of_blocks m c (Cert.Attn.G (argX m c))
        (fun t ht r b d => out_block m c (hX c) t ht r b d)),
      ((h c).2 main_arg0 (Pipeline.mem_restRefs_of main_arg0 (by decide) (by decide))).trans (V_main_arg0 m c)⟩)
    (run_main m ρ)

end Cert.KernelIdeal.Hand

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.RefValue.lean ====
/-
  The reference program's result, read at an index, is the specification's function of the input.

  The program computes, for each batch b and position s, the scores of s against every position t, subtracts
  the row's maximum, exponentiates, normalises by the row's sum and takes the weighted mean of the feature
  columns. Where every input entry is a real number each stage is the coercion of a real formula: the scores
  are real, their maximum folded from −∞ over 4096 real scores is a real number M, the shifted exponentials
  are positive reals, their sum L is a positive real, and the mean with weights exp(score − M)/L is the
  specification's quotient, in which no maximum appears.
-/
import proofs.«424141_j81587198755253_3_alg».proof.Proof.Gen.ReferenceIdeal.Read
import proofs.«424141_j81587198755253_3_alg».proof.Proof.Spec
import proofs.«424141_j81587198755253_3_alg».proof.Proof.LibERealBatchNorm
import proofs.«424141_j81587198755253_3_alg».proof.Proof.LibSoftmaxShift

noncomputable section

namespace Cert.RefValue

open Cert.ReferenceIdeal Cert.ReferenceIdeal.Gen Cert.ReferenceIdeal.Read Cert.Attn
open Idealize.ShloMosaic Idealize.ShloMosaic.ValueIdx
open scoped BigOperators

/-! ## The float constants -/

theorem ofBits_32 : Ideal.ofBits .f32 0x42000000#32 = ((32 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-! ## The stages at an index -/

section Stages

variable (x0 : SIn.Idx → EReal) (hx : ∀ i, ∃ r : ℝ, x0 i = (r : EReal))
include hx

/-- The transposed input at (b, s, d) is the input at (s, b, d). -/
theorem v0_at (b : Fin 4) (s : Fin 4096) (d : Fin 1024) :
    val_main_v0 (F := Ideal) x0 (ix3 b s d) = ((realOf x0 s b d : ℝ) : EReal) := by
  rw [val_main_v0_apply, ← eq_coe_realOf x0 hx s b d]
  exact congrArg x0 (funext fun a => by match a with | ⟨0, _⟩ => rfl | ⟨1, _⟩ => rfl | ⟨2, _⟩ => rfl)

/-- The inner product of the feature rows of positions s and t in batch b. -/
theorem v1_at (b : Fin 4) (s t : Fin 4096) :
    val_main_v1 (F := Ideal) x0 (ix3 b s t)
      = ((∑ d : Fin 1024, realOf x0 s b d * realOf x0 t b d : ℝ) : EReal) := by
  rw [val_main_v1_apply, ← Cert.SoftmaxShift.coe_sum]
  refine Finset.sum_congr rfl fun k _ => ?_
  have el : lidx_main_v1 (ix3 b s t) k = ix3 b s k :=
    funext fun a => by match a with | ⟨0, _⟩ => rfl | ⟨1, _⟩ => rfl | ⟨2, _⟩ => rfl
  have er : ridx_main_v1 (ix3 b s t) k = ix3 b t k :=
    funext fun a => by match a with | ⟨0, _⟩ => rfl | ⟨1, _⟩ => rfl | ⟨2, _⟩ => rfl
  rw [el, er, v0_at x0 hx, v0_at x0 hx, EReal.coe_mul]

omit hx in
/-- The broadcast scale is 32 everywhere. -/
theorem v2_at (i : S4x4096x4096.Idx) : val_main_v2 (F := Ideal) i = ((32 : ℝ) : EReal) := by
  rw [val_main_v2_apply, val_main_cst_apply, Ideal.ofBits_def, ofBits_32]

/-- The scaled inner product is the specification's score. -/
theorem v3_at (b : Fin 4) (s t : Fin 4096) :
    val_main_v3 (F := Ideal) x0 (ix3 b s t) = ((score (realOf x0) b s t : ℝ) : EReal) := by
  rw [val_main_v3_apply, v1_at x0 hx, v2_at, Ideal.hostDivf_def,
    Ideal.div_coe (by norm_num : (32 : ℝ) ≠ 0), ← EReal.coe_mul]
  rfl

omit hx in
/-- A reduced index (b, s) with the coordinate k put back on the last axis is (b, s, k). -/
theorem lift_ix2 (h : S4x4096x4096.Reduces [2] S4x4096) (b : Fin 4) (s : Fin 4096)
    (k : Fin (S4x4096x4096.size 2)) :
    h.lift (ix2 b s) k = ix3 b s (⟨k.val, k.isLt⟩ : Fin 4096) := by
  funext c; apply Fin.ext
  match c with | ⟨0, _⟩ => rfl | ⟨1, _⟩ => rfl | ⟨2, _⟩ => rfl

/-- The row's maximum, folded from −∞ over the 4096 real scores of the row, is a real number. -/
theorem v4_isReal (b : Fin 4) (s : Fin 4096) :
    ∃ M : ℝ, val_main_v4 (F := Ideal) x0 (ix2 b s) = (M : EReal) := by
  have h : S4x4096x4096.Reduces [2] S4x4096 := by decide
  unfold val_main_v4
  rw [Host.reduce_eq_fold_single FloatOps.maximumf _ _ reducesTo_S4x4096x4096_S4x4096_d2 h h_S_]
  have hf : (val_main_v3 (F := Ideal) x0 ∘ h.lift (ix2 b s))
      = fun k : Fin 4096 => ((score (realOf x0) b s k : ℝ) : EReal) :=
    funext fun k => by rw [Function.comp_apply, lift_ix2, v3_at x0 hx]; rfl
  have hi : val_main_cst_0 (F := Ideal) (Shape.Idx.first h_S_) = (⊥ : EReal) := by
    rw [val_main_cst_0_apply, Ideal.ofBits_def, ofBits_negInf]
  rw [hf, hi]
  exact Cert.SoftmaxShift.fold_max_bot_coe_isReal (n := 4096) (by norm_num) _

omit hx in
/-- The broadcast −∞ is −∞ everywhere. -/
theorem v5_at (i : S4x4096.Idx) : val_main_v5 (F := Ideal) i = (⊥ : EReal) := by
  rw [val_main_v5_apply, val_main_cst_1_apply, Ideal.ofBits_def, ofBits_negInf]

/-- The maximum of −∞ and the row's maximum is a real number. -/
theorem v6_isReal (b : Fin 4) (s : Fin 4096) :
    ∃ M : ℝ, val_main_v6 (F := Ideal) x0 (ix2 b s) = (M : EReal) := by
  obtain ⟨M, hM⟩ := v4_isReal x0 hx b s
  exact ⟨M, by rw [val_main_v6_apply, v5_at, hM, Ideal.maximumf_def, Cert.SoftmaxShift.max_bot_coe]⟩

end Stages

/-- The number the program subtracts from the scores of row (b, s). -/
def rowShift (x0 : SIn.Idx → EReal) (b : Fin 4) (s : Fin 4096) : ℝ :=
  (val_main_v6 (F := Ideal) x0 (ix2 b s)).toReal

/-- The shifted exponential of the score of s against t. -/
def expShift (x0 : SIn.Idx → EReal) (b : Fin 4) (s t : Fin 4096) : ℝ :=
  Real.exp (score (realOf x0) b s t - rowShift x0 b s)

/-- The row's sum of shifted exponentials. -/
def rowSum (x0 : SIn.Idx → EReal) (b : Fin 4) (s : Fin 4096) : ℝ :=
  ∑ t : Fin 4096, expShift x0 b s t

theorem rowSum_pos (x0 : SIn.Idx → EReal) (b : Fin 4) (s : Fin 4096) : 0 < rowSum x0 b s :=
  Cert.SoftmaxShift.sum_exp_pos Finset.univ ⟨s, Finset.mem_univ s⟩
    (fun t => score (realOf x0) b s t - rowShift x0 b s)

section Stages2

variable (x0 : SIn.Idx → EReal) (hx : ∀ i, ∃ r : ℝ, x0 i = (r : EReal))
include hx

theorem v6_at (b : Fin 4) (s : Fin 4096) :
    val_main_v6 (F := Ideal) x0 (ix2 b s) = ((rowShift x0 b s : ℝ) : EReal) := by
  obtain ⟨M, hM⟩ := v6_isReal x0 hx b s
  unfold rowShift; rw [hM]; rfl

/-- The row's shift broadcast along the row. -/
theorem v8_at (b : Fin 4) (s t : Fin 4096) :
    val_main_v8 (F := Ideal) x0 (ix3 b s t) = ((rowShift x0 b s : ℝ) : EReal) := by
  rw [val_main_v8_apply, val_main_v7_apply, ← v6_at x0 hx b s]
  exact congrArg (val_main_v6 (F := Ideal) x0)
    (funext fun a => by match a with | ⟨0, _⟩ => rfl | ⟨1, _⟩ => rfl)

/-- The shifted exponential. -/
theorem v10_at (b : Fin 4) (s t : Fin 4096) :
    val_main_v10 (F := Ideal) x0 (ix3 b s t) = ((expShift x0 b s t : ℝ) : EReal) := by
  rw [val_main_v10_apply, val_main_v9_apply, v3_at x0 hx, v8_at x0 hx, Ideal.subf_def,
    ← EReal.coe_sub, Ideal.hostUnary_exp_def, Ideal.exp_coe]
  rfl

/-- The row's sum. -/
theorem v11_at (b : Fin 4) (s : Fin 4096) :
    val_main_v11 (F := Ideal) x0 (ix2 b s) = ((rowSum x0 b s : ℝ) : EReal) := by
  rw [val_main_v11_apply, val_main_cst_2_apply, Ideal.ofBits_def, Cert.ERealBN.ofBits_zero, zero_add]
  unfold rowSum
  rw [← Cert.SoftmaxShift.coe_sum]
  refine Finset.sum_congr rfl fun k _ => ?_
  rw [← v10_at x0 hx b s k]
  exact congrArg (val_main_v10 (F := Ideal) x0)
    (funext fun a => by match a with | ⟨0, _⟩ => rfl | ⟨1, _⟩ => rfl | ⟨2, _⟩ => rfl)

/-- The row's sum broadcast along the row. -/
theorem v13_at (b : Fin 4) (s t : Fin 4096) :
    val_main_v13 (F := Ideal) x0 (ix3 b s t) = ((rowSum x0 b s : ℝ) : EReal) := by
  rw [val_main_v13_apply, val_main_v12_apply, ← v11_at x0 hx b s]
  exact congrArg (val_main_v11 (F := Ideal) x0)
    (funext fun a => by match a with | ⟨0, _⟩ => rfl | ⟨1, _⟩ => rfl)

/-- The normalised weight. -/
theorem v14_at (b : Fin 4) (s t : Fin 4096) :
    val_main_v14 (F := Ideal) x0 (ix3 b s t) = ((expShift x0 b s t / rowSum x0 b s : ℝ) : EReal) := by
  rw [val_main_v14_apply, v10_at x0 hx, v13_at x0 hx, Ideal.hostDivf_def,
    Ideal.div_coe (rowSum_pos x0 b s).ne', ← EReal.coe_mul, mul_one_div]

/-- The weighted mean of feature column d, with the weights normalised first. -/
theorem v15_at (b : Fin 4) (s : Fin 4096) (d : Fin 1024) :
    val_main_v15 (F := Ideal) x0 (ix3 b s d)
      = ((∑ t : Fin 4096, expShift x0 b s t / rowSum x0 b s * realOf x0 t b d : ℝ) : EReal) := by
  rw [val_main_v15_apply, ← Cert.SoftmaxShift.coe_sum]
  refine Finset.sum_congr rfl fun k _ => ?_
  have el : lidx_main_v15 (ix3 b s d) k = ix3 b s k :=
    funext fun a => by match a with | ⟨0, _⟩ => rfl | ⟨1, _⟩ => rfl | ⟨2, _⟩ => rfl
  have er : ridx_main_v15 (ix3 b s d) k = ix3 b k d :=
    funext fun a => by match a with | ⟨0, _⟩ => rfl | ⟨1, _⟩ => rfl | ⟨2, _⟩ => rfl
  rw [el, er, v14_at x0 hx, v0_at x0 hx, EReal.coe_mul]

/-- The result at (s, b, d) is the specification's weighted mean. -/
theorem v16_at (s : Fin 4096) (b : Fin 4) (d : Fin 1024) :
    val_main_v16 (F := Ideal) x0 (ix3 s b d) = ((attn (realOf x0) s b d : ℝ) : EReal) := by
  have e : idx_main_v16 (ix3 s b d) = ix3 b s d :=
    funext fun a => by match a with | ⟨0, _⟩ => rfl | ⟨1, _⟩ => rfl | ⟨2, _⟩ => rfl
  rw [val_main_v16_apply, e, v15_at x0 hx]
  congr 1
  exact Cert.SoftmaxShift.normalized_sum Finset.univ ⟨s, Finset.mem_univ s⟩
    (fun t => score (realOf x0) b s t) (fun t => realOf x0 t b d) (rowShift x0 b s)

end Stages2

/-- The reference program's result is the specification's array. -/
theorem ref_eq_G (x0 : SIn.Idx → EReal) (hx : ∀ i, ∃ r : ℝ, x0 i = (r : EReal)) :
    val_main_v16 (F := Ideal) x0 = G x0 := by
  funext i
  obtain ⟨s, b, d, rfl⟩ : ∃ s b d, i = ix3 s b d := ⟨i 0, i 1, i 2, eq_ix3 i⟩
  rw [v16_at x0 hx, G_ix3]

end Cert.RefValue

end
-- ==== Proof.Finite.lean ====
/-
  Finite inputs are real numbers.

  The printed precondition reads: the conjunction, over every index of the input array, of the comparisons
  |x i| < +∞ is true. At the ideal instance a float is an extended real, |a| is max a (−a), and the pattern
  0x7F800000 denotes +∞. A conjunction folded from "true" that comes out true met only true comparisons, so
  |x i| < +∞ at every index i. Of the extended reals only −∞ and +∞ have |a| = +∞; every other one is a real
  number. Hence every entry of the input is a real number.
-/
import proofs.«424141_j81587198755253_3_alg».proof.Pre_finite_inputs
import Idealize.ShloMosaic.Lib.ReduceAll
import Idealize.ShloMosaic.Lib.ValueIdx
import Idealize.ShloMosaic.PureOps.Ideal

namespace Cert.Finite

open Idealize.ShloMosaic

/-- An extended real whose absolute value max a (−a) compares below +∞ is a real number. -/
private theorem isReal_of_abs_lt_top (a : EReal) (h : Ideal.cmp .olt (max a (-a)) ⊤ = 1#1) :
    ∃ r : ℝ, a = (r : EReal) := by
  -- the comparison bit is 1 only when the strict inequality holds
  have hlt : max a (-a) < ⊤ := by
    by_contra hn
    simp [Ideal.cmp, hn] at h
  induction a using EReal.rec with
  | bot => simp at hlt
  | coe r => exact ⟨r, rfl⟩
  | top => simp at hlt

/-- Under the precondition that every input is finite, every entry of the input array is a real number. -/
theorem isReal_of_pre [Cert.Pre_finite_inputs.Facts] (x : FVec Ideal Cert.Pre_finite_inputs.S4096x4x1024 .f32)
    (h : Cert.Pre_finite_inputs.fn (F := Ideal) x = (fun _ => 1#1)) : ∀ i, ∃ r : ℝ, x i = (r : EReal) := by
  intro i
  -- the result has a single index
  haveI : Subsingleton Cert.Pre_finite_inputs.S_.Idx := ⟨fun a b => funext fun d => d.elim0⟩
  have h0 := congrFun h ValueIdx.ix0
  dsimp only [Cert.Pre_finite_inputs.fn] at h0
  -- the conjunction over all indices is true, so the comparison at i is true
  have hi := Host.reduce_andi_all _ _ _ _ _ h0 i
  -- at i the comparison is |x i| < (what 0x7F800000 denotes)
  have hi' : Ideal.cmp .olt (max (x i) (-(x i))) (Ideal.ofBits .f32 0x7F800000#32) = 1#1 := hi
  -- that pattern denotes +∞
  have htop : Ideal.ofBits .f32 0x7F800000#32 = ⊤ := by simp [Ideal.ofBits, Ideal.ieee]
  rw [htop] at hi'
  exact isReal_of_abs_lt_top (x i) hi'

end Cert.Finite
-- ==== Proof.lean ====
/-
  Self-attention over 4096 positions, 4 batches and 1024 features: the kernel and the reference compute the
  same array over the extended reals, wherever every input entry is a real number.

  For a batch b the score of position s against position t is the inner product of their feature rows
  divided by 32, and the result at (s, b, d) is the mean of the feature column d over the positions t with
  weights proportional to exp(score b s t):
      attn s b d = (Σ_t exp(score b s t) · x[t,b,d]) / (Σ_t exp(score b s t)).
  The reference forms a row's 4096 scores at once, subtracts the row's maximum M from them, exponentiates,
  divides each weight by the row's sum and then sums the weighted feature rows. The kernel walks a grid of
  sixteen query tiles of 256 positions by four key tiles of 1024 positions, the key tile innermost, and keeps
  per query row a running maximum μ, a running denominator Σ_t exp(score − μ) and a running numerator
  Σ_t exp(score − μ) · x[t,b,d] over the key positions seen so far: at each key tile it raises μ to the
  tile's maximum, rescales both sums by exp(μ_old − μ_new), adds the tile's terms, and after the fourth
  key tile stores the quotient of numerator and denominator.
  Both are the specification's quotient because, for real scores and any real number μ,
  exp(s − μ) = exp(−μ) · exp(s): the factor exp(−μ) is common to numerator and denominator, so the quotient
  of the two sums does not depend on the shift subtracted from the scores, be it the whole row's maximum
  or the running maximum of the first key tiles; and a sum over all 4096 positions is the sum of its four
  consecutive tiles. Every maximum met is a maximum of real numbers folded from −∞ or from a finite floor
  over a nonempty range, hence a real number, every sum of exponentials is positive, and so every division
  is a division of real numbers by a nonzero real.

  The idealization rewrote no operation (the kernel's conversions to bfloat16 are the identity at the ideal
  instance), and the three frame claims are the programs' runs with the results forgotten.
-/
import proofs.«424141_j81587198755253_3_alg».proof.Defs
import proofs.«424141_j81587198755253_3_alg».proof.Proof.Gen.Kernel
import proofs.«424141_j81587198755253_3_alg».proof.Proof.Gen.Kernel.Skeleton
import proofs.«424141_j81587198755253_3_alg».proof.Proof.Gen.Kernel.Launch
import proofs.«424141_j81587198755253_3_alg».proof.Proof.Gen.Kernel.Points
import proofs.«424141_j81587198755253_3_alg».proof.Proof.Gen.KernelIdeal
import proofs.«424141_j81587198755253_3_alg».proof.Proof.Gen.KernelIdeal.Skeleton
import proofs.«424141_j81587198755253_3_alg».proof.Proof.Gen.KernelIdeal.Launch
import proofs.«424141_j81587198755253_3_alg».proof.Proof.Gen.KernelIdeal.Points
import proofs.«424141_j81587198755253_3_alg».proof.Proof.Gen.ReferenceIdeal
import proofs.«424141_j81587198755253_3_alg».proof.Proof.Gen.Pre_finite_inputs
import proofs.«424141_j81587198755253_3_alg».proof.Proof.Gen.ReferenceIdeal.Run
import proofs.«424141_j81587198755253_3_alg».proof.Proof.Gen.ReferenceIdeal.Read
import proofs.«424141_j81587198755253_3_alg».proof.Proof.KBFrame
import proofs.«424141_j81587198755253_3_alg».proof.Proof.KIValue
import proofs.«424141_j81587198755253_3_alg».proof.Proof.RefValue
import proofs.«424141_j81587198755253_3_alg».proof.Proof.Finite
import Idealize.ShloMosaic.Adequacy
import Idealize.ShloMosaic.Init

noncomputable section

namespace Cert.Proof

open Idealize.ShloMosaic Idealize.SL.Sem Cert.Kernel

/-- The word-level kernel runs and leaves its argument array unchanged. -/
theorem frame_kernel : Cert.frame_Kernel := fun m ρ _ => Cert.Kernel.Hand.frame (F := Bits) m ρ

/-- So does the kernel over the extended reals. -/
theorem frame_kernelIdeal : Cert.frame_KernelIdeal := fun m ρ _ => Cert.KernelIdeal.Hand.frame (F := Ideal) m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument array, every entry of it finite, both programs end with their result
    arrays at the specification's function of the argument array: the kernel by its run over the grid, the
    reference by its operations read one by one. -/
theorem algebraic : Cert.algebraic_KernelIdeal_ReferenceIdeal := by
  intro m ρ m' ρ' hpre hagree
  have hX : ∀ c i, ∃ r : ℝ, Cert.KernelIdeal.Hand.argX m c i = (r : EReal) :=
    fun c => Cert.Finite.isReal_of_pre _ (hpre c)
  refine ⟨fun c => Cert.Attn.G (Cert.KernelIdeal.Hand.argX m c), Cert.KernelIdeal.Hand.kernel_run m ρ hX, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, hagree c]
  exact Cert.RefValue.ref_eq_G _ (hX c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
